-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S2048x128 : Shape := ⟨2, ![2048, 128]⟩
abbrev S1x128 : Shape := ⟨2, ![1, 128]⟩
abbrev S2048x1024 : Shape := ⟨2, ![2048, 1024]⟩
abbrev S1024x128 : Shape := ⟨2, ![1024, 128]⟩

abbrev nBuf : Space → Nat
  | .hbm => 17
  | .vmem => 34
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16384x128, .f32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S128x128, .f32⟩
  | .hbm, ⟨13, _⟩ => ⟨S1x128, .f32⟩
  | .hbm, ⟨14, _⟩ => ⟨S16384x128, .f32⟩
  | .hbm, ⟨15, _⟩ => ⟨S1x128, .f32⟩
  | .hbm, ⟨16, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S128x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S128x128, .f32⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | .local _ .vmem, ⟨24, _⟩ => ⟨S2048x1024, .f32⟩
  | .local _ .vmem, ⟨25, _⟩ => ⟨S2048x1024, .f32⟩
  | .local _ .vmem, ⟨26, _⟩ => ⟨S1024x128, .f32⟩
  | .local _ .vmem, ⟨27, _⟩ => ⟨S1024x128, .f32⟩
  | .local _ .vmem, ⟨28, _⟩ => ⟨S1x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29
abbrev cc4_sem4_0 : DmaSem sig := 30
abbrev cc4_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128_S1x128 : S128.ShapeCasts S1x128
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  transposes_S128x128_S128x128_1_0 : S128x128.Transposes [1, 0] S128x128
  shapeCasts_S128x128_S128x128 : S128x128.ShapeCasts S128x128
  dot_S2048x128_S128x128_S2048x128_1_0_0_1_n_n_wf : DotDims.WF S2048x128 S128x128 S2048x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .f32 = 32 ∨ (Rect.block (s := S16384x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S16384x128.size a
  hwx3_3 : ∀ i : grid3.Coords, EltTy.bits .f32 = 32 ∨ (Rect.block (s := S16384x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S16384x16384.size a
  hwx4_0 : ∀ i : grid4.Coords, EltTy.bits .f32 = 32 ∨ (Rect.block (s := S16384x16384) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S16384x128.size a
  hwx4_1 : ∀ i : grid4.Coords, EltTy.bits .f32 = 32 ∨ (Rect.block (s := S16384x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S16384x128.size a
  hwx4_3 : ∀ i : grid4.Coords, EltTy.bits .f32 = 32 ∨ (Rect.block (s := S16384x128) S2048x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x128.size a ≤ S16384x128.size a
  hwx4_4 : ∀ i : grid4.Coords, EltTy.bits .f32 = 32 ∨ (Rect.block (s := S16384x128) S2048x128.size (cc4_transform_4 i) (hinb4_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6) S2048x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v8) S2048x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16384x128, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S1x128, .f32⟩
  | .hbm, ⟨16, _⟩ => ⟨S16384x128, .f32⟩
  | .hbm, ⟨17, _⟩ => ⟨S16384x128, .f32⟩
  | .hbm, ⟨18, _⟩ => ⟨S128x128, .f32⟩
  | .hbm, ⟨19, _⟩ => ⟨S16384x128, .f32⟩
  | .hbm, ⟨20, _⟩ => ⟨S16384x128, .f32⟩
  | .hbm, ⟨21, _⟩ => ⟨S1x128, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S128x128_S128x128_1_0 : S128x128.Transposes [1, 0] S128x128
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.K.Reg0.lean ====
/-
  A row-tiled product (the program has two such calls, of one shape). The grid has 8 points; at point t the body reads rows
  2048·t … 2048·t + 2047 of the left array (window 0) and the whole 128 × 128 right array (window 1), and stores
  their matrix product (operands narrowed first) into the same rows of the result (window 2). Stated at any
  contents V of the unscoped buffers at the region's entry: what each staging buffer holds after the body, the
  body's triple, the pipeline's proof data and its body obligation.
-/
import proofs.«137723_j44461501448910_1_alg».proof.Proof.Gen.Kernel.Launch
import proofs.«137723_j44461501448910_1_alg».proof.Proof.Gen.Kernel.Skeleton
import proofs.«137723_j44461501448910_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched once; its block index never moves, so its buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2048x128 := Rect.unit (s := S2048x128) ![0, 0] S2048x128.size inb_S2048x128_S2048x128_0_0
abbrev r0_b : Rect S128x128 := Rect.unit (s := S128x128) ![0, 0] S128x128.size inb_S128x128_S128x128_0_0

/-- The result's staging buffer after the body: one store of the product, over the whole buffer. -/
def out0_2 (x0 : Vec F S2048x128 .f32) (x1 : Vec F S128x128 .f32) : Vec F S2048x128 .f32 :=
  View.canon [⟨r0_a, k0_pay1 (View.ld x0 r0_a) (View.ld x1 r0_b)⟩]

theorem cover0_2 (p0 : Vec F S2048x128 .f32) (y : S2048x128.Idx) :
    ∃ pc ∈ ([⟨r0_a, p0⟩] : List (View.Piece (Elt F) S2048x128 .f32)), y ∈ pc.1.set :=
  View.cover_of_tiled [⟨r0_a, p0⟩] S2048x128.size (by rfl) y

set_option maxHeartbeats 1000000 in
/-- The body on whole staging memrefs: the two inputs are read and kept, the result's buffer ends at the product. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__small_matmul_kernel i arg1 harg1 arg2 harg2 arg3 harg3) K := by
  simp only [cc0__small_matmul_kernel_eq_skeleton]; unfold cc0__small_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: arrays as the region finds them; after the body each input's buffer at its block,
    the result's at the product of the two blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
/-
  The first layer's aggregation: adjacency times support plus a bias row, as a reduction over column tiles. The grid has
  8 × 16 = 128 points; point t = 16·i + k is row tile i, reduction tile k. At point t the body reads rows
  2048·i … 2048·i + 2047, columns 1024·k … 1024·k + 1023 of the 16384 × 16384 adjacency array (window 0), rows
  1024·k … 1024·k + 1023 of the 16384 × 128 support array (window 1) and the 1 × 128 bias row (window 2). A 2048 × 128
  accumulator that is no window's buffer is set to zero where k = 0, and at every point the product of the two blocks
  (operands narrowed first) is added to it: after point t it holds the sum over k' = 0 … k of the products of row tile
  i's blocks. Where k = 15 the accumulator plus the bias row repeated down the rows is stored into the buffer of rows
  2048·i … 2048·i + 2047 of the result (window 3); these are the only points that write the result's block back, and at
  every other point the result's buffer is left as it was found. Stated at any contents V of the unscoped buffers at the
  region's entry.
-/
import proofs.«137723_j44461501448910_1_alg».proof.Proof.Gen.Kernel.Launch
import proofs.«137723_j44461501448910_1_alg».proof.Proof.Gen.Kernel.Skeleton
import proofs.«137723_j44461501448910_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (an unfetched window's block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- The first condition: the reduction coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second condition: the reduction coordinate is 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the reduction coordinate is 0 the result's window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where it is strictly between 0 and 15. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where it is 15 the result's window is live. -/
theorem liveAt1_3_C : ∀ t : Fin cfg1.N, ¬cond1_0 (grid1.coords t) → cond1_1 (grid1.coords t) → cfg1.idle 3 (grid1.coords t) = false := by decide +kernel

abbrev r1_a : Rect S2048x1024 := Rect.unit (s := S2048x1024) ![0, 0] S2048x1024.size inb_S2048x1024_S2048x1024_0_0
abbrev r1_b : Rect S1024x128 := Rect.unit (s := S1024x128) ![0, 0] S1024x128.size inb_S1024x128_S1024x128_0_0
abbrev r1_c : Rect S1x128 := Rect.unit (s := S1x128) ![0, 0] S1x128.size inb_S1x128_S1x128_0_0
abbrev r1_s : Rect S2048x128 := Rect.unit (s := S2048x128) ![0, 0] S2048x128.size inb_S2048x128_S2048x128_0_0

theorem off_zero2 : (![0, 0] : Fin 2 → ℕ) = fun _ => 0 := by funext a; fin_cases a <;> rfl

/-- A load through the whole shape reads the contents. -/
theorem ld1_a (X : Vec F S2048x1024 .f32) : View.ld X r1_a = X :=
  View.ld_unit_zero (S := S2048x1024) off_zero2 inb_S2048x1024_S2048x1024_0_0 X
theorem ld1_b (X : Vec F S1024x128 .f32) : View.ld X r1_b = X :=
  View.ld_unit_zero (S := S1024x128) off_zero2 inb_S1024x128_S1024x128_0_0 X
theorem ld1_c (X : Vec F S1x128 .f32) : View.ld X r1_c = X :=
  View.ld_unit_zero (S := S1x128) off_zero2 inb_S1x128_S1x128_0_0 X
theorem ld1_s (X : Vec F S2048x128 .f32) : View.ld X r1_s = X :=
  View.ld_unit_zero (S := S2048x128) off_zero2 inb_S2048x128_S2048x128_0_0 X

/-- A list of stores whose last goes through the whole 2048 × 128 shape covers it, -/
theorem cover1_s (p0 : Vec F S2048x128 .f32) (L : List (View.Piece (Elt F) S2048x128 .f32)) (y : S2048x128.Idx) :
    ∃ pc ∈ ((⟨r1_s, p0⟩ : View.Piece (Elt F) S2048x128 .f32) :: L), y ∈ pc.1.set :=
  ⟨_, List.mem_cons_self, View.mem_set_unit_zero (S := S2048x128) off_zero2 inb_S2048x128_S2048x128_0_0 y⟩

/-- and leaves that store's payload, whatever the buffer held and through whichever view it is read. -/
theorem read1_s {κ : Kind} {sp : Space} (v : View sig κ sp S2048x128 .f32) (f : v.ty.Contents (Elt F)) (w : Vec F S2048x128 .f32)
    (L : List (View.Piece (Elt F) S2048x128 .f32)) :
    v.read (Elt F) (v.writes (Elt F) f ((⟨r1_s, w⟩ : View.Piece (Elt F) S2048x128 .f32) :: L)) = w :=
  (View.read_writes_eq_canon v f _ (cover1_s w L)).trans
    (View.canon_cons_unit_zero (S := S2048x128) off_zero2 inb_S2048x128_S2048x128_0_0 w L)

/-- A load of the whole shape after one such store reads the payload. -/
theorem readCov1_s {κ : Kind} {sp : Space} (v : View sig κ sp S2048x128 .f32) (w : Vec F S2048x128 .f32) :
    v.readCov [(⟨r1_s, w⟩ : View.Piece (Elt F) S2048x128 .f32)] r1_s.toLoadRect = w :=
  View.readCov_unit_zero (S := S2048x128) v off_zero2 inb_S2048x128_S2048x128_0_0 w

/-- The accumulator after a point that does not reset it. -/
theorem scratch1_step {κ κ' κ'' : Kind} {sp sp' sp'' : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F)) :
    vs.read (Elt F) (vs.writes (Elt F) fs
        [⟨r1_s, k1_pay2 (v0.readAt (Elt F) r1_a.toLoadRect f0) (v1.readAt (Elt F) r1_b.toLoadRect f1) (vs.readAt (Elt F) r1_s.toLoadRect fs)⟩])
      = k1_pay2 (v0.read (Elt F) f0) (v1.read (Elt F) f1) (vs.read (Elt F) fs) := by
  rw [read1_s]
  simp only [View.readAt_eq_ld, ld1_a, ld1_b, ld1_s]

/-- The accumulator after a point that resets it first. -/
theorem scratch1_reset {κ κ' κ'' : Kind} {sp sp' sp'' : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F)) :
    vs.read (Elt F) (vs.writes (Elt F) fs
        [⟨r1_s, k1_pay2 (v0.readAt (Elt F) r1_a.toLoadRect f0) (v1.readAt (Elt F) r1_b.toLoadRect f1)
            (vs.readCov [(⟨r1_s, k1_pay1 (F := F)⟩ : View.Piece (Elt F) S2048x128 .f32)] r1_s.toLoadRect)⟩, ⟨r1_s, k1_pay1 (F := F)⟩])
      = k1_pay2 (v0.read (Elt F) f0) (v1.read (Elt F) f1) (k1_pay1 (F := F)) := by
  rw [read1_s, readCov1_s]
  simp only [View.readAt_eq_ld, ld1_a, ld1_b]

/-- The result's buffer after the point that stores into it. -/
theorem out1_last {κ κ' κ'' κ3 κ4 : Kind} {sp sp' sp'' sp3 sp4 : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F))
    (v2 : View sig κ3 sp3 S1x128 .f32) (f2 : v2.ty.Contents (Elt F)) (vo : View sig κ4 sp4 S2048x128 .f32) (fo : vo.ty.Contents (Elt F)) :
    vo.read (Elt F) (vo.writes (Elt F) fo
        [⟨r1_s, k1_pay3
            (vs.readCov [(⟨r1_s, k1_pay2 (v0.readAt (Elt F) r1_a.toLoadRect f0) (v1.readAt (Elt F) r1_b.toLoadRect f1) (vs.readAt (Elt F) r1_s.toLoadRect fs)⟩
              : View.Piece (Elt F) S2048x128 .f32)] r1_s.toLoadRect)
            (v2.readAt (Elt F) r1_c.toLoadRect f2)⟩])
      = k1_pay3 (k1_pay2 (v0.read (Elt F) f0) (v1.read (Elt F) f1) (vs.read (Elt F) fs)) (v2.read (Elt F) f2) := by
  rw [read1_s, readCov1_s]
  simp only [View.readAt_eq_ld, ld1_a, ld1_b, ld1_c, ld1_s]

/-! ## The body on whole staging memrefs, in its three cases -/

set_option maxHeartbeats 1000000 in
/-- Reduction coordinate 0: the accumulator is zeroed, then the product of the two blocks is added to it; the inputs
    are read and kept and the result's buffer is not touched. -/
theorem sound_kernel1_A (c : Dev nD) (E : Set ℕ) (i : grid1.Coords) (hc0 : cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xi : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact scratch1_reset _ _ _ _ _ _

set_option maxHeartbeats 1000000 in
/-- Reduction coordinate strictly between 0 and 15: the product of the two blocks is added to the accumulator. -/
theorem sound_kernel1_B (c : Dev nD) (E : Set ℕ) (i : grid1.Coords) (hc0 : ¬cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xi : Vec F S2048x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact scratch1_step _ _ _ _ _ _

set_option maxHeartbeats 1000000 in
/-- Reduction coordinate 15: the product of the two blocks is added to the accumulator, and the accumulator plus the
    bias row repeated down the rows is stored over the result's buffer. -/
theorem sound_kernel1_C (c : Dev nD) (E : Set ℕ) (i : grid1.Coords) (hc0 : ¬cond1_0 i) (hc1 : cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    exact out1_last _ _ _ _ _ _ _ _ _ _
  iexists _; isplitr
  swap; · iexact HS
  ipureintro
  sl_unfold_run_names
  exact scratch1_step _ _ _ _ _ _

/-! ## The accumulator after each point -/

/-- The accumulator after the body at point n: the product of the point's two blocks added to zero where the reduction
    coordinate is 0, to what the point before left elsewhere. -/
def acc1 (c : Dev nD) : (n : ℕ) → n < cfg1.N → Vec F S2048x128 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then k1_pay1 (F := F) else acc1 c n (Nat.lt_of_succ_lt h))

/-- At a point whose reduction coordinate is 0 the sum starts afresh. -/
theorem acc1_reset (c : Dev nD) (t : Fin cfg1.N) (h : t.val % 16 = 0) :
    acc1 V c t.val t.isLt = k1_pay2 (iblk1 V c 0 t) (iblk1 V c 1 t) (k1_pay1 (F := F)) := by
  obtain ⟨n, hn⟩ := t
  cases n with
  | zero => rfl
  | succ n => dsimp only at h; rw [acc1, if_pos h]

/-- Elsewhere it goes on from the point before. -/
theorem acc1_step (c : Dev nD) (t : Fin cfg1.N) (h : ¬ t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => dsimp only at h; rw [acc1, if_neg h]; rfl

/-! ## The invariant -/

/-- The accumulator: a whole scoped buffer of the kernel's own, passed beside the windows. -/
abbrev scM1_0 : Memref sig .tc .vmem S2048x128 .f32 := Memref.whole cc1_scratch0

/-- What the launch hands the region, with the accumulator as a memref owned at some contents. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

/-- The invariant before position n: before the first point what the launch hands over; afterwards the same with the
    accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ Pipeline.scopedRestBut spec1 c [cc1_scratch0]) ∗ (∃ r, prngReg c r)) := by
  cases n with
  | zero => exact absurd rfl hz
  | succ n => rfl

/-! ## The pipeline's proof data -/

/-- Arrays as the region finds them; after the body each input's buffer at its block, the result's at the accumulator
    plus the bias row (the point where the reduction coordinate is 15 is the one that writes it back); the invariant
    carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
/-- At the point that writes the result's block back it is the finished sum plus the bias row. -/
theorem after1_3_last (c : Dev nD) (t : Fin cfg1.N) (h : t.val % 16 = 15) :
    (dat1 V c).after 3 t = k1_pay3 (acc1 V c t.val t.isLt) (iblk1 V c 2 t) := after1_3 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms of the two conditions say which of the
    three cases the point is in; the invariant hands the body the accumulator at what the point before left (at anything
    before the first point) and takes it back at this point's contents; where the reduction coordinate is not 15 the
    result's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3_A t ((hcond1_0 t).mpr h0) (fun h => h1 ((hcond1_1 t).mp h)))
      (noFlush1_3_A t ((hcond1_0 t).mpr h0) (fun h => h1 ((hcond1_1 t).mp h)))]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) ((hcond1_0 t).mpr h0) (fun h => h1 ((hcond1_1 t).mp h)) _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) ((hcond1_0 t).mpr h0) (fun h => h1 ((hcond1_1 t).mp h)) _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 16 = 15
    · rw [show (dat1 V c).leavesExact 3 t = owns (c : Thread nD τ) (st1_3 t) fullShare ((dat1 V c).after 3 t) from by
        unfold Dat.leavesExact; rw [liveAt1_3_C t (fun h => h0 ((hcond1_0 t).mp h)) ((hcond1_1 t).mpr h1)], after1_3]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) (fun h => h0 ((hcond1_0 t).mp h)) ((hcond1_1 t).mpr h1) _ _ _ _ _ _ _ _ _ _
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) (fun h => h1 ((hcond1_1 t).mp h)))
        (noFlush1_3_B t (fun h => h0 ((hcond1_0 t).mp h)) (fun h => h1 ((hcond1_1 t).mp h)))]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) (fun h => h0 ((hcond1_0 t).mp h)) (fun h => h1 ((hcond1_1 t).mp h)) _ _ _ _ _ _ _ _ _ _
        (iblk1 V c 0 t) (iblk1 V c 1 t) (iblk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]; · iexists _; iexact HS
    iexact HR
  iexact Hg

end Cert.Kernel.Reg

end
-- ==== Proof.K.Reg2.lean ====
/-
  A row-tiled product (the program has two such calls, of one shape). The grid has 8 points; at point t the body reads rows
  2048·t … 2048·t + 2047 of the left array (window 0) and the whole 128 × 128 right array (window 1), and stores
  their matrix product (operands narrowed first) into the same rows of the result (window 2). Stated at any
  contents V of the unscoped buffers at the region's entry: what each staging buffer holds after the body, the
  body's triple, the pipeline's proof data and its body obligation.
-/
import proofs.«137723_j44461501448910_1_alg».proof.Proof.Gen.Kernel.Launch
import proofs.«137723_j44461501448910_1_alg».proof.Proof.Gen.Kernel.Skeleton
import proofs.«137723_j44461501448910_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand is fetched once; its block index never moves, so its buffer holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2048x128 := Rect.unit (s := S2048x128) ![0, 0] S2048x128.size inb_S2048x128_S2048x128_0_0
abbrev r2_b : Rect S128x128 := Rect.unit (s := S128x128) ![0, 0] S128x128.size inb_S128x128_S128x128_0_0

/-- The result's staging buffer after the body: one store of the product, over the whole buffer. -/
def out2_2 (x0 : Vec F S2048x128 .f32) (x1 : Vec F S128x128 .f32) : Vec F S2048x128 .f32 :=
  View.canon [⟨r2_a, k2_pay1 (View.ld x0 r2_a) (View.ld x1 r2_b)⟩]

theorem cover2_2 (p0 : Vec F S2048x128 .f32) (y : S2048x128.Idx) :
    ∃ pc ∈ ([⟨r2_a, p0⟩] : List (View.Piece (Elt F) S2048x128 .f32)), y ∈ pc.1.set :=
  View.cover_of_tiled [⟨r2_a, p0⟩] S2048x128.size (by rfl) y

set_option maxHeartbeats 1000000 in
/-- The body on whole staging memrefs: the two inputs are read and kept, the result's buffer ends at the product. -/
theorem sound_kernel2 (c : Dev nD) (E : Set ℕ) (i : grid2.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__small_matmul_kernel i arg1 harg1 arg2 harg2 arg3 harg3) K := by
  simp only [cc2__small_matmul_kernel_eq_skeleton]; unfold cc2__small_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: arrays as the region finds them; after the body each input's buffer at its block,
    the result's at the product of the two blocks; the scoped rest untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Reg3.lean ====
/-
  The row-tiled product with a bias row. The grid has 8 points; at point t the body reads rows 2048·t … 2048·t + 2047
  of the left array (window 0), the whole 128 × 128 right array (window 1) and the 1 × 128 bias row (window 2), and
  stores the product of the two (operands narrowed first) plus the bias row repeated down the rows into the same rows
  of the result (window 3). Stated at any contents V of the unscoped buffers at the region's entry.
-/
import proofs.«137723_j44461501448910_1_alg».proof.Proof.Gen.Kernel.Launch
import proofs.«137723_j44461501448910_1_alg».proof.Proof.Gen.Kernel.Skeleton
import proofs.«137723_j44461501448910_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's staging buffer holds its block at every point, fetched there or not (an unfetched window's block
    index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2048x128 := Rect.unit (s := S2048x128) ![0, 0] S2048x128.size inb_S2048x128_S2048x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-- The result's staging buffer after the body: one store of product plus bias, over the whole buffer. -/
def out3_3 (x0 : Vec F S2048x128 .f32) (x1 : Vec F S128x128 .f32) (x2 : Vec F S1x128 .f32) : Vec F S2048x128 .f32 :=
  View.canon [⟨r3_a, k3_pay1 (View.ld x0 r3_a) (View.ld x1 r3_b) (View.ld x2 r3_c)⟩]

theorem cover3_3 (p0 : Vec F S2048x128 .f32) (y : S2048x128.Idx) :
    ∃ pc ∈ ([⟨r3_a, p0⟩] : List (View.Piece (Elt F) S2048x128 .f32)), y ∈ pc.1.set :=
  View.cover_of_tiled [⟨r3_a, p0⟩] S2048x128.size (by rfl) y

set_option maxHeartbeats 1000000 in
/-- The body on whole staging memrefs: the three inputs are read and kept, the result's buffer ends at product plus bias. -/
theorem sound_kernel3 (c : Dev nD) (E : Set ℕ) (i : grid3.Coords) (arg1 : Memref sig .tc .vmem S2048x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__small_matmul_bias_kernel i arg1 harg1 arg2 harg2 arg3 harg3 arg4 harg4) K := by
  simp only [cc3__small_matmul_bias_kernel_eq_skeleton]; unfold cc3__small_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data: arrays as the region finds them; after the body each input's buffer at its block,
    the result's at product plus bias of the blocks; the scoped rest untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Reg4.lean ====
/-
  The last pallas_call: the adjacency product accumulated over 16 column tiles per row tile, plus a bias row and a
  residual block. The grid has 8 × 16 points, t = 16·i + k. At point t the body reads the 2048 × 1024 adjacency block
  (i, k) (window 0) and the 1024 × 128 support block k (window 1); a 2048 × 128 accumulator kept between points is
  zeroed at k = 0, then increased by the product of the two blocks (operands narrowed first) at every k; at k = 15
  the accumulator plus the 1 × 128 bias row (window 2) repeated down the rows plus the 2048 × 128 residual block i
  (window 3) is stored into the result's block i (window 4). At the other points the result's buffer is left as found
  and is not written back. Stated at any contents V of the unscoped buffers at the region's entry.
-/
import proofs.«137723_j44461501448910_1_alg».proof.Proof.Gen.Kernel.Launch
import proofs.«137723_j44461501448910_1_alg».proof.Proof.Gen.Kernel.Skeleton
import proofs.«137723_j44461501448910_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's staging buffer holds its block at every point, fetched there or not (an unfetched window's block
    index has not moved since its last fetch). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2048x1024 := Rect.unit (s := S2048x1024) ![0, 0] S2048x1024.size inb_S2048x1024_S2048x1024_0_0
abbrev r4_b : Rect S1024x128 := Rect.unit (s := S1024x128) ![0, 0] S1024x128.size inb_S1024x128_S1024x128_0_0
abbrev r4_c : Rect S1x128 := Rect.unit (s := S1x128) ![0, 0] S1x128.size inb_S1x128_S1x128_0_0
abbrev r4_d : Rect S2048x128 := Rect.unit (s := S2048x128) ![0, 0] S2048x128.size inb_S2048x128_S2048x128_0_0

/-- The zero offsets of a whole-buffer rectangle of rank 2. -/
theorem hz4 : (![0, 0] : Fin 2 → Nat) = fun _ => 0 := funext fun a => by fin_cases a <;> rfl

/-- One store over the whole 2048 × 128 buffer covers it, whatever was stored before. -/
theorem cover4_d (p0 : Vec F S2048x128 .f32) (L : List (View.Piece (Elt F) S2048x128 .f32)) (y : S2048x128.Idx) :
    ∃ pc ∈ ((⟨r4_d, p0⟩ : View.Piece (Elt F) S2048x128 .f32) :: L), y ∈ pc.1.set :=
  ⟨_, List.mem_cons_self, View.mem_set_unit_zero hz4 inb_S2048x128_S2048x128_0_0 y⟩

/-! ## The body's two conditions on the grid's coordinates -/

/-- The first conditional's condition: the column-tile coordinate is 0. -/
abbrev cond4_0 (i : grid4.Coords) : Prop := (Scalar.cmpi .ne (Scalar.extui (Scalar.cmpi .eq (BitVec.ofNat 32 (i 1).val) 0#32)) 0#32) = 1#1
/-- It holds at the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)
/-- The second conditional's condition: the column-tile coordinate is 15. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- At the first column tile nothing is stored into the result's buffer, -/
theorem idleAt4_4_A : ∀ t : Fin cfg4.N, cond4_0 (grid4.coords t) → ¬cond4_1 (grid4.coords t) → cfg4.idle 4 (grid4.coords t) = true := by decide +kernel
/-- and its block is not written back there. -/
theorem noFlush4_4_A : ∀ t : Fin cfg4.N, cond4_0 (grid4.coords t) → ¬cond4_1 (grid4.coords t) → (cfg4.win 4).flush t = false := by decide +kernel
/-- The same at the column tiles strictly between the first and the last. -/
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
/-- At the last column tile the result's buffer is stored into. -/
theorem liveAt4_4_C : ∀ t : Fin cfg4.N, ¬cond4_0 (grid4.coords t) → cond4_1 (grid4.coords t) → cfg4.idle 4 (grid4.coords t) = false := by decide +kernel

set_option maxHeartbeats 1000000 in
/-- Strictly between the first and the last column tile: the accumulator grows by the product of the two blocks; the
    inputs are read and kept, the result's buffer is handed back as found. -/
theorem sound_kernel4_B (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : ¬cond4_0 i) (hc1 : ¬cond4_1 i) (x0 : Vec F S2048x1024 .f32) (x1 : Vec F S1024x128 .f32) (x2 : Vec F S1x128 .f32) (x3 : Vec F S2048x128 .f32)
    (xi : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k4_pay2 x0 x1 xs)) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%fi, %hfi, H4⟩, ⟨%fs, %hfs, HS⟩, Hk⟩
  subst hf0; subst hf1; subst hf2; subst hf3; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fi; isplitr; · ipureintro; rfl
    iexact H4
  iexists _; isplitr
  swap; · iexact HS
  ipureintro
  rw [View.read_writes_eq_canon _ _ _ (cover4_d _ []), View.canon_unit_zero hz4]
  simp only [View.readAt_eq_ld, View.ld_unit_zero (S := S2048x1024) hz4, View.ld_unit_zero (S := S1024x128) hz4, View.ld_unit_zero (S := S2048x128) hz4]

set_option maxHeartbeats 1000000 in
/-- At the first column tile: the accumulator is zeroed, then grows by the product of the two blocks; the inputs are
    read and kept, the result's buffer is handed back as found. -/
theorem sound_kernel4_A (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : cond4_0 i) (hc1 : ¬cond4_1 i) (x0 : Vec F S2048x1024 .f32) (x1 : Vec F S1024x128 .f32) (x2 : Vec F S1x128 .f32) (x3 : Vec F S2048x128 .f32)
    (xi : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k4_pay2 x0 x1 (k4_pay1 (F := F)))) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%fi, %hfi, H4⟩, ⟨%ds, %fs, -, HS⟩, Hk⟩
  subst hf0; subst hf1; subst hf2; subst hf3; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fi; isplitr; · ipureintro; rfl
    iexact H4
  iexists _; isplitr
  swap; · iexact HS
  ipureintro
  sl_unfold_words
  rw [View.read_writes_eq_canon _ _ _ (cover4_d _ _), View.canon_cons_unit_zero (S := S2048x128) hz4]
  simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]

set_option maxHeartbeats 1000000 in
/-- At the last column tile: the accumulator grows by the product of the two blocks, and the result's buffer is
    stored whole at the accumulator plus the bias row plus the residual block; the inputs are read and kept. -/
theorem sound_kernel4_C (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : ¬cond4_0 i) (hc1 : cond4_1 i) (x0 : Vec F S2048x1024 .f32) (x1 : Vec F S1024x128 .f32) (x2 : Vec F S1x128 .f32) (x3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k4_pay3 (k4_pay2 x0 x1 xs) x2 x3) ∗ owns (c : Thread nD τ) arg7 fullShare (k4_pay2 x0 x1 xs)) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%di, %fi, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover4_d _ []), View.canon_unit_zero hz4]
    simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]
  iexists _; isplitr
  swap; · iexact HS
  ipureintro
  sl_unfold_words
  rw [View.read_writes_eq_canon _ _ _ (cover4_d _ []), View.canon_unit_zero hz4]
  simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]

/-! ## The accumulator point by point -/

/-- The accumulator after the body at point n: the product of the point's two blocks added to zero at the first column
    tile of a row tile, and to what the point before left at every other. -/
def acc4 (c : Dev nD) : (n : ℕ) → n < cfg4.N → Vec F S2048x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩)
      (if (n + 1) % 16 = 0 then k4_pay1 (F := F) else acc4 c n (Nat.lt_of_succ_lt h))

/-- At the first column tile of a row tile the sum starts from zero. -/
theorem acc4_reset (c : Dev nD) (t : Fin cfg4.N) (h : t.val % 16 = 0) :
    acc4 V c t.val t.isLt = k4_pay2 (iblk4 V c 0 t) (iblk4 V c 1 t) (k4_pay1 (F := F)) := by
  obtain ⟨n, hn⟩ := t
  cases n with
  | zero => exact rfl
  | succ n => exact congrArg (k4_pay2 (iblk4 V c 0 ⟨n + 1, hn⟩) (iblk4 V c 1 ⟨n + 1, hn⟩)) (if_pos h)

/-- At every other column tile it continues from what the point before left. -/
theorem acc4_step (c : Dev nD) (t : Fin cfg4.N) (h : ¬ t.val % 16 = 0) :
    acc4 V c t.val t.isLt = k4_pay2 (iblk4 V c 0 t) (iblk4 V c 1 t) (acc4 V c (t.val - 1) (by omega)) := by
  obtain ⟨n, hn⟩ := t
  cases n with
  | zero => exact absurd (Nat.zero_mod _) h
  | succ n => exact congrArg (k4_pay2 (iblk4 V c 0 ⟨n + 1, hn⟩) (iblk4 V c 1 ⟨n + 1, hn⟩)) (if_neg h)

/-! ## The invariant: the accumulator's buffer beside what the body never touches -/

/-- The accumulator's buffer, whole. -/
abbrev scM4 : Memref sig .tc .vmem S2048x128 .f32 := Memref.whole cc4_scratch0

/-- What the launch hands the region, with the accumulator's buffer taken out of the scoped rest and owned at some
    contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The invariant before position n: before the first point what the launch hands over; afterwards the accumulator's
    buffer at what the point before left in it, the other scoped buffers at some contents and the generator register
    at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The arrays as the region finds them; after the body each input's buffer at its block and the result's at the
    accumulator plus bias row plus residual block (read only where the block is written back: at the last column
    tile); the invariant above; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (iblk4 V c 2 t) (iblk4 V c 3 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (acc4 V c t.val t.isLt) (iblk4 V c 2 t) (iblk4 V c 3 t) := by dsimp only [dat4]
/-- The block written back at the last column tile of a row tile. -/
theorem after4_4_last (c : Dev nD) (t : Fin cfg4.N) (h : t.val % 16 = 15) :
    (dat4 V c).after 4 t = k4_pay3 (acc4 V c t.val t.isLt) (iblk4 V c 2 t) (iblk4 V c 3 t) := after4_4 V c t

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks; the point's residue mod 16 says which of the three
    cases it is in; the invariant hands the body the accumulator's buffer at what the point before left (at anything
    before the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 128 := lt_of_lt_of_eq t.isLt (show cfg4.N = 128 from N_4)
  by_cases h0 : t.val % 16 = 0
  · have h1 : ¬ t.val % 16 = 15 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4_A t hc0 hc1) (noFlush4_4_A t hc0 hc1)]
    rw [acc4_reset V c t h0]
    by_cases hz : t.val = 0
    · rw [PhiS4_castSucc V c t, PhiS4_zero V c _ _ hz, PhiA4_eq]
      iintro ⟨⟨⟨HS, Hb⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond4_0 (grid4.coords t) := fun h => h0 ((hcond4_0 t).mp h)
    rw [acc4_step V c t h0]
    rw [PhiS4_castSucc V c t, PhiS4_pos V c _ _ hz]
    by_cases h1 : t.val % 16 = 15
    · have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4_C t hc0 hc1], after4_4, acc4_step V c t h0]
      iintro ⟨⟨⟨HS, Hb⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4_B t hc0 hc1) (noFlush4_4_B t hc0 hc1)]
      iintro ⟨⟨⟨HS, Hb⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ hc0 hc1 (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the scoped rest back: what the accumulator holds is forgotten. -/
theorem Phi4_out (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS, Hb⟩, Hg⟩
  isplitl [HS Hb]
  · isplitl [HS]
    · iexists _; iexact HS
    iexact Hb
  iexact Hg

/-- After the last point the invariant gives the scoped rest back. -/
theorem hout4 (c : Dev nD) : (dat4 V c).Φ (Fin.last cfg4.N) ⊢ (Pipeline.ΦA spec4 c : sProp 𝕄) :=
  Phi4_out V c _ (by rw [Fin.val_last]; have : cfg4.N = 128 := N_4; omega)

end Cert.Kernel.Reg

end
-- ==== Proof.K.Run.lean ====
/-
  The run of @main: five kernel regions among three stretches of host operations, in the order
  region 0; a reshape of the first bias; region 1; region 2; a transpose and a reshape; region 3; a reshape; region 4.

  The TensorCore's buffer contents at each boundary are a fold from the launch memory: a host stretch moves them by
  the operations' results, a region leaves its windows' arrays at what its write-backs fold to and every other buffer
  as it found it. Each region's proof data are taken at the contents the fold gives at its entry. No host operation
  and no region writes an argument array (a region reads one through an input window or bypasses it), so the fold at
  an argument walks back to the launch memory; that is the frame claim. The result array is the last region's output
  window at the end of its grid.
-/
import proofs.«137723_j44461501448910_1_alg».proof.Proof.K.Reg0
import proofs.«137723_j44461501448910_1_alg».proof.Proof.K.Reg1
import proofs.«137723_j44461501448910_1_alg».proof.Proof.K.Reg2
import proofs.«137723_j44461501448910_1_alg».proof.Proof.K.Reg3
import proofs.«137723_j44461501448910_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first bias is reshaped to a row (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- The reshape writes the bias row only. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (region 2 is entered from region 1's exit contents). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the residual weight is transposed and the residual bias reshaped to a row (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- The two operations write the transposed weight and the bias row only. -/
theorem W5_of_ne (c : Dev nD) (b : Ref sig .tc) (hb4 : b ≠ main_v4) (hb5 : b ≠ main_v5) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne hb4, StableHlo.devRef_ne_of_ne hb5⟩))

/-- At region 3's exit. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the second bias is reshaped to a row (region 4's entry). -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- The reshape writes the bias row only. -/
theorem W7_of_ne (c : Dev nD) (b : Ref sig .tc) (hb : b ≠ main_v7) :
    W7 m ρ c (Proc.devRef .tc b) = W6 m ρ c (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

/-- At region 4's exit: the contents the run ends at. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ## The arguments end as launched

No host operation writes an argument, and a region either reads it through an input window (whose array the
pipeline leaves as it found it) or does not touch it; so the fold at an argument walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The adjacency is the first input window of regions 1 and 4. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := (W8_arr m ρ c 0).trans (((dat4 (V7 m ρ) c).arrAt_in 0 rfl _).trans (A_eq4 (V7 m ρ) c 0))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide) (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- The first layer's weight is region 0's second input window. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide) (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- The first bias is read by a host reshape only. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide) (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The second layer's weight is region 2's second input window. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide) (by decide)
    _ = W3 m ρ c (Proc.devRef .tc main_arg4) := (W4_arr m ρ c 1).trans (((dat2 (V3 m ρ) c).arrAt_in 1 rfl _).trans (A_eq2 (V3 m ρ) c 1))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- The second bias is read by a host reshape only. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide) (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The residual weight is read by a host transpose only. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide) (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- The residual bias is read by a host reshape only. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## The result array, and what each region finds at its entry -/

/-- The result is region 4's output window at the end of its grid. -/
theorem W8_out (c : Dev nD) : W8 m ρ c (Proc.devRef .tc main_v8) = (dat4 (V7 m ρ) c).arrAt 4 cfg4.N := W8_arr m ρ c 4

/-- Region 0 reads the features and the first weight as launched. -/
theorem entry0_main_arg0 (c : Dev nD) : V0 m ρ c main_arg0 = m ((c : Thread nD τ).loc main_arg0) := rfl
theorem entry0_main_arg2 (c : Dev nD) : V0 m ρ c main_arg2 = m ((c : Thread nD τ).loc main_arg2) := rfl

/-- Region 1 finds region 0's product (the reshape between them does not write it) -/
theorem entry1_main_v0 (c : Dev nD) : V2 m ρ c main_v0 = (dat0 (V0 m ρ) c).arrAt 2 cfg0.N :=
  (W2_of_ne m ρ c main_v0 (by decide)).trans (W1_arr m ρ c 2)
/-- and the adjacency as launched. -/
theorem entry1_main_arg1 (c : Dev nD) : V2 m ρ c main_arg1 = m ((c : Thread nD τ).loc main_arg1) :=
  (W2_of_ne m ρ c main_arg1 (by decide)).trans (W1_of_ne m ρ c main_arg1 (by decide))

/-- Region 2 finds the first layer's output as region 1 left it -/
theorem entry2_main_v2 (c : Dev nD) : V3 m ρ c main_v2 = (dat1 (V2 m ρ) c).arrAt 3 cfg1.N := W3_arr m ρ c 3
/-- and the second weight as launched. -/
theorem entry2_main_arg4 (c : Dev nD) : V3 m ρ c main_arg4 = m ((c : Thread nD τ).loc main_arg4) :=
  (W3_of_ne m ρ c main_arg4 (by decide)).trans ((W2_of_ne m ρ c main_arg4 (by decide)).trans (W1_of_ne m ρ c main_arg4 (by decide)))

/-- Region 3 finds the same first-layer output: region 2 only read it, the host stretch does not write it. -/
theorem entry3_main_v2 (c : Dev nD) : V5 m ρ c main_v2 = (dat1 (V2 m ρ) c).arrAt 3 cfg1.N :=
  (W5_of_ne m ρ c main_v2 (by decide) (by decide)).trans
    (((W4_arr m ρ c 0).trans (((dat2 (V3 m ρ) c).arrAt_in 0 rfl _).trans (A_eq2 (V3 m ρ) c 0))).trans (W3_arr m ρ c 3))

/-- Region 4 finds region 2's product, -/
theorem entry4_main_v3 (c : Dev nD) : V7 m ρ c main_v3 = (dat2 (V3 m ρ) c).arrAt 2 cfg2.N :=
  (W7_of_ne m ρ c main_v3 (by decide)).trans ((W6_of_ne m ρ c main_v3 (by decide)).trans
    ((W5_of_ne m ρ c main_v3 (by decide) (by decide)).trans (W4_arr m ρ c 2)))
/-- region 3's residual, -/
theorem entry4_main_v6 (c : Dev nD) : V7 m ρ c main_v6 = (dat3 (V5 m ρ) c).arrAt 3 cfg3.N :=
  (W7_of_ne m ρ c main_v6 (by decide)).trans (W6_arr m ρ c 3)
/-- and the adjacency as launched. -/
theorem entry4_main_arg1 (c : Dev nD) : V7 m ρ c main_arg1 = m ((c : Thread nD τ).loc main_arg1) :=
  (W7_of_ne m ρ c main_arg1 (by decide)).trans ((W6_of_ne m ρ c main_arg1 (by decide)).trans
    ((W5_of_ne m ρ c main_arg1 (by decide) (by decide)).trans ((W4_of_ne m ρ c main_arg1 (by decide)).trans
      (((W3_arr m ρ c 0).trans (((dat1 (V2 m ρ) c).arrAt_in 0 rfl _).trans (A_eq1 (V2 m ρ) c 0))).trans
        ((W2_of_ne m ρ c main_arg1 (by decide)).trans (W1_of_ne m ρ c main_arg1 (by decide)))))))

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies of units owed, at nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends at the
    contents the operations' results give. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the contents the run ends at, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at the launch contents, left at W1. Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its invariant is not the
    same assertion at every point (an accumulator is carried between the points of a row); what the launch hands it
    is the invariant before the first point, and after the last point the invariant gives the scoped rest back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3 (region 1's exit), left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W5, left at W6. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W7, left at W8, the contents the run ends
    at; its post is the last thread state beside the core owing nothing. Like region 1 its invariant varies with the
    point, and its two ends are reached through the same two facts. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    refine .trans ?_ (hin4 (V7 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V7 m ρ) c).Φ (Fin.last cfg4.N) from rfl]
    refine (hout4 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters every weakly fair execution of @main on the TensorCores terminates,
    nothing faulting, and in every final state each unscoped buffer holds what the fold ends at. The launch makes
    the first thread state; each segment's post is the next one's pre; the last thread state is read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The frame claim at any float instance: the run terminates, nothing faulting, and every argument array ends as
    launched; each conjunct is the run's final contents at that argument, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.Kernel.Reg

end
-- ==== Proof.KI.Reg0.lean ====
/-
  A row-tiled product (the program has two such calls, of one shape). The grid has 8 points; at point t the body reads rows
  2048·t … 2048·t + 2047 of the left array (window 0) and the whole 128 × 128 right array (window 1), and stores
  their matrix product (operands narrowed first) into the same rows of the result (window 2). Stated at any
  contents V of the unscoped buffers at the region's entry: what each staging buffer holds after the body, the
  body's triple, the pipeline's proof data and its body obligation.
-/
import proofs.«137723_j44461501448910_1_alg».proof.Proof.Gen.KernelIdeal.Launch
import proofs.«137723_j44461501448910_1_alg».proof.Proof.Gen.KernelIdeal.Skeleton
import proofs.«137723_j44461501448910_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched once; its block index never moves, so its buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S2048x128 := Rect.unit (s := S2048x128) ![0, 0] S2048x128.size inb_S2048x128_S2048x128_0_0
abbrev r0_b : Rect S128x128 := Rect.unit (s := S128x128) ![0, 0] S128x128.size inb_S128x128_S128x128_0_0

/-- The result's staging buffer after the body: one store of the product, over the whole buffer. -/
def out0_2 (x0 : Vec F S2048x128 .f32) (x1 : Vec F S128x128 .f32) : Vec F S2048x128 .f32 :=
  View.canon [⟨r0_a, k0_pay1 (View.ld x0 r0_a) (View.ld x1 r0_b)⟩]

theorem cover0_2 (p0 : Vec F S2048x128 .f32) (y : S2048x128.Idx) :
    ∃ pc ∈ ([⟨r0_a, p0⟩] : List (View.Piece (Elt F) S2048x128 .f32)), y ∈ pc.1.set :=
  View.cover_of_tiled [⟨r0_a, p0⟩] S2048x128.size (by rfl) y

set_option maxHeartbeats 1000000 in
/-- The body on whole staging memrefs: the two inputs are read and kept, the result's buffer ends at the product. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__small_matmul_kernel i arg1 harg1 arg2 harg2 arg3 harg3) K := by
  simp only [cc0__small_matmul_kernel_eq_skeleton]; unfold cc0__small_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data: arrays as the region finds them; after the body each input's buffer at its block,
    the result's at the product of the two blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
/-
  The first layer's aggregation: adjacency times support plus a bias row, as a reduction over column tiles. The grid has
  8 × 16 = 128 points; point t = 16·i + k is row tile i, reduction tile k. At point t the body reads rows
  2048·i … 2048·i + 2047, columns 1024·k … 1024·k + 1023 of the 16384 × 16384 adjacency array (window 0), rows
  1024·k … 1024·k + 1023 of the 16384 × 128 support array (window 1) and the 1 × 128 bias row (window 2). A 2048 × 128
  accumulator that is no window's buffer is set to zero where k = 0, and at every point the product of the two blocks
  (operands narrowed first) is added to it: after point t it holds the sum over k' = 0 … k of the products of row tile
  i's blocks. Where k = 15 the accumulator plus the bias row repeated down the rows is stored into the buffer of rows
  2048·i … 2048·i + 2047 of the result (window 3); these are the only points that write the result's block back, and at
  every other point the result's buffer is left as it was found. Stated at any contents V of the unscoped buffers at the
  region's entry.
-/
import proofs.«137723_j44461501448910_1_alg».proof.Proof.Gen.KernelIdeal.Launch
import proofs.«137723_j44461501448910_1_alg».proof.Proof.Gen.KernelIdeal.Skeleton
import proofs.«137723_j44461501448910_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (an unfetched window's block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- The first condition: the reduction coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second condition: the reduction coordinate is 15. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the reduction coordinate is 0 the result's window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where it is strictly between 0 and 15. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where it is 15 the result's window is live. -/
theorem liveAt1_3_C : ∀ t : Fin cfg1.N, ¬cond1_0 (grid1.coords t) → cond1_1 (grid1.coords t) → cfg1.idle 3 (grid1.coords t) = false := by decide +kernel

abbrev r1_a : Rect S2048x1024 := Rect.unit (s := S2048x1024) ![0, 0] S2048x1024.size inb_S2048x1024_S2048x1024_0_0
abbrev r1_b : Rect S1024x128 := Rect.unit (s := S1024x128) ![0, 0] S1024x128.size inb_S1024x128_S1024x128_0_0
abbrev r1_c : Rect S1x128 := Rect.unit (s := S1x128) ![0, 0] S1x128.size inb_S1x128_S1x128_0_0
abbrev r1_s : Rect S2048x128 := Rect.unit (s := S2048x128) ![0, 0] S2048x128.size inb_S2048x128_S2048x128_0_0

theorem off_zero2 : (![0, 0] : Fin 2 → ℕ) = fun _ => 0 := by funext a; fin_cases a <;> rfl

/-- A load through the whole shape reads the contents. -/
theorem ld1_a (X : Vec F S2048x1024 .f32) : View.ld X r1_a = X :=
  View.ld_unit_zero (S := S2048x1024) off_zero2 inb_S2048x1024_S2048x1024_0_0 X
theorem ld1_b (X : Vec F S1024x128 .f32) : View.ld X r1_b = X :=
  View.ld_unit_zero (S := S1024x128) off_zero2 inb_S1024x128_S1024x128_0_0 X
theorem ld1_c (X : Vec F S1x128 .f32) : View.ld X r1_c = X :=
  View.ld_unit_zero (S := S1x128) off_zero2 inb_S1x128_S1x128_0_0 X
theorem ld1_s (X : Vec F S2048x128 .f32) : View.ld X r1_s = X :=
  View.ld_unit_zero (S := S2048x128) off_zero2 inb_S2048x128_S2048x128_0_0 X

/-- A list of stores whose last goes through the whole 2048 × 128 shape covers it, -/
theorem cover1_s (p0 : Vec F S2048x128 .f32) (L : List (View.Piece (Elt F) S2048x128 .f32)) (y : S2048x128.Idx) :
    ∃ pc ∈ ((⟨r1_s, p0⟩ : View.Piece (Elt F) S2048x128 .f32) :: L), y ∈ pc.1.set :=
  ⟨_, List.mem_cons_self, View.mem_set_unit_zero (S := S2048x128) off_zero2 inb_S2048x128_S2048x128_0_0 y⟩

/-- and leaves that store's payload, whatever the buffer held and through whichever view it is read. -/
theorem read1_s {κ : Kind} {sp : Space} (v : View sig κ sp S2048x128 .f32) (f : v.ty.Contents (Elt F)) (w : Vec F S2048x128 .f32)
    (L : List (View.Piece (Elt F) S2048x128 .f32)) :
    v.read (Elt F) (v.writes (Elt F) f ((⟨r1_s, w⟩ : View.Piece (Elt F) S2048x128 .f32) :: L)) = w :=
  (View.read_writes_eq_canon v f _ (cover1_s w L)).trans
    (View.canon_cons_unit_zero (S := S2048x128) off_zero2 inb_S2048x128_S2048x128_0_0 w L)

/-- A load of the whole shape after one such store reads the payload. -/
theorem readCov1_s {κ : Kind} {sp : Space} (v : View sig κ sp S2048x128 .f32) (w : Vec F S2048x128 .f32) :
    v.readCov [(⟨r1_s, w⟩ : View.Piece (Elt F) S2048x128 .f32)] r1_s.toLoadRect = w :=
  View.readCov_unit_zero (S := S2048x128) v off_zero2 inb_S2048x128_S2048x128_0_0 w

/-- The accumulator after a point that does not reset it. -/
theorem scratch1_step {κ κ' κ'' : Kind} {sp sp' sp'' : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F)) :
    vs.read (Elt F) (vs.writes (Elt F) fs
        [⟨r1_s, k1_pay2 (v0.readAt (Elt F) r1_a.toLoadRect f0) (v1.readAt (Elt F) r1_b.toLoadRect f1) (vs.readAt (Elt F) r1_s.toLoadRect fs)⟩])
      = k1_pay2 (v0.read (Elt F) f0) (v1.read (Elt F) f1) (vs.read (Elt F) fs) := by
  rw [read1_s]
  simp only [View.readAt_eq_ld, ld1_a, ld1_b, ld1_s]

/-- The accumulator after a point that resets it first. -/
theorem scratch1_reset {κ κ' κ'' : Kind} {sp sp' sp'' : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F)) :
    vs.read (Elt F) (vs.writes (Elt F) fs
        [⟨r1_s, k1_pay2 (v0.readAt (Elt F) r1_a.toLoadRect f0) (v1.readAt (Elt F) r1_b.toLoadRect f1)
            (vs.readCov [(⟨r1_s, k1_pay1 (F := F)⟩ : View.Piece (Elt F) S2048x128 .f32)] r1_s.toLoadRect)⟩, ⟨r1_s, k1_pay1 (F := F)⟩])
      = k1_pay2 (v0.read (Elt F) f0) (v1.read (Elt F) f1) (k1_pay1 (F := F)) := by
  rw [read1_s, readCov1_s]
  simp only [View.readAt_eq_ld, ld1_a, ld1_b]

/-- The result's buffer after the point that stores into it. -/
theorem out1_last {κ κ' κ'' κ3 κ4 : Kind} {sp sp' sp'' sp3 sp4 : Space} (v0 : View sig κ sp S2048x1024 .f32) (f0 : v0.ty.Contents (Elt F))
    (v1 : View sig κ' sp' S1024x128 .f32) (f1 : v1.ty.Contents (Elt F)) (vs : View sig κ'' sp'' S2048x128 .f32) (fs : vs.ty.Contents (Elt F))
    (v2 : View sig κ3 sp3 S1x128 .f32) (f2 : v2.ty.Contents (Elt F)) (vo : View sig κ4 sp4 S2048x128 .f32) (fo : vo.ty.Contents (Elt F)) :
    vo.read (Elt F) (vo.writes (Elt F) fo
        [⟨r1_s, k1_pay3
            (vs.readCov [(⟨r1_s, k1_pay2 (v0.readAt (Elt F) r1_a.toLoadRect f0) (v1.readAt (Elt F) r1_b.toLoadRect f1) (vs.readAt (Elt F) r1_s.toLoadRect fs)⟩
              : View.Piece (Elt F) S2048x128 .f32)] r1_s.toLoadRect)
            (v2.readAt (Elt F) r1_c.toLoadRect f2)⟩])
      = k1_pay3 (k1_pay2 (v0.read (Elt F) f0) (v1.read (Elt F) f1) (vs.read (Elt F) fs)) (v2.read (Elt F) f2) := by
  rw [read1_s, readCov1_s]
  simp only [View.readAt_eq_ld, ld1_a, ld1_b, ld1_c, ld1_s]

/-! ## The body on whole staging memrefs, in its three cases -/

set_option maxHeartbeats 1000000 in
/-- Reduction coordinate 0: the accumulator is zeroed, then the product of the two blocks is added to it; the inputs
    are read and kept and the result's buffer is not touched. -/
theorem sound_kernel1_A (c : Dev nD) (E : Set ℕ) (i : grid1.Coords) (hc0 : cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xi : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 (k1_pay1 (F := F)))) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact scratch1_reset _ _ _ _ _ _

set_option maxHeartbeats 1000000 in
/-- Reduction coordinate strictly between 0 and 15: the product of the two blocks is added to the accumulator. -/
theorem sound_kernel1_B (c : Dev nD) (E : Set ℕ) (i : grid1.Coords) (hc0 : ¬cond1_0 i) (hc1 : ¬cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xi : Vec F S2048x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay2 x0 x1 xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact scratch1_step _ _ _ _ _ _

set_option maxHeartbeats 1000000 in
/-- Reduction coordinate 15: the product of the two blocks is added to the accumulator, and the accumulator plus the
    bias row repeated down the rows is stored over the result's buffer. -/
theorem sound_kernel1_C (c : Dev nD) (E : Set ℕ) (i : grid1.Coords) (hc0 : ¬cond1_0 i) (hc1 : cond1_1 i)
    (arg2 : Memref sig .tc .vmem S2048x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (x0 : Vec F S2048x1024 .f32) (x1 : Vec F S1024x128 .f32) (x2 : Vec F S1x128 .f32) (xs : Vec F S2048x128 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    exact out1_last _ _ _ _ _ _ _ _ _ _
  iexists _; isplitr
  swap; · iexact HS
  ipureintro
  sl_unfold_run_names
  exact scratch1_step _ _ _ _ _ _

/-! ## The accumulator after each point -/

/-- The accumulator after the body at point n: the product of the point's two blocks added to zero where the reduction
    coordinate is 0, to what the point before left elsewhere. -/
def acc1 (c : Dev nD) : (n : ℕ) → n < cfg1.N → Vec F S2048x128 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then k1_pay1 (F := F) else acc1 c n (Nat.lt_of_succ_lt h))

/-- At a point whose reduction coordinate is 0 the sum starts afresh. -/
theorem acc1_reset (c : Dev nD) (t : Fin cfg1.N) (h : t.val % 16 = 0) :
    acc1 V c t.val t.isLt = k1_pay2 (iblk1 V c 0 t) (iblk1 V c 1 t) (k1_pay1 (F := F)) := by
  obtain ⟨n, hn⟩ := t
  cases n with
  | zero => rfl
  | succ n => dsimp only at h; rw [acc1, if_pos h]

/-- Elsewhere it goes on from the point before. -/
theorem acc1_step (c : Dev nD) (t : Fin cfg1.N) (h : ¬ t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => dsimp only at h; rw [acc1, if_neg h]; rfl

/-! ## The invariant -/

/-- The accumulator: a whole scoped buffer of the kernel's own, passed beside the windows. -/
abbrev scM1_0 : Memref sig .tc .vmem S2048x128 .f32 := Memref.whole cc1_scratch0

/-- What the launch hands the region, with the accumulator as a memref owned at some contents. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; try rfl

/-- The invariant before position n: before the first point what the launch hands over; afterwards the same with the
    accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ Pipeline.scopedRestBut spec1 c [cc1_scratch0]) ∗ (∃ r, prngReg c r)) := by
  cases n with
  | zero => exact absurd rfl hz
  | succ n => rfl

/-! ## The pipeline's proof data -/

/-- Arrays as the region finds them; after the body each input's buffer at its block, the result's at the accumulator
    plus the bias row (the point where the reduction coordinate is 15 is the one that writes it back); the invariant
    carries the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
/-- At the point that writes the result's block back it is the finished sum plus the bias row. -/
theorem after1_3_last (c : Dev nD) (t : Fin cfg1.N) (h : t.val % 16 = 15) :
    (dat1 V c).after 3 t = k1_pay3 (acc1 V c t.val t.isLt) (iblk1 V c 2 t) := after1_3 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms of the two conditions say which of the
    three cases the point is in; the invariant hands the body the accumulator at what the point before left (at anything
    before the first point) and takes it back at this point's contents; where the reduction coordinate is not 15 the
    result's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3_A t ((hcond1_0 t).mpr h0) (fun h => h1 ((hcond1_1 t).mp h)))
      (noFlush1_3_A t ((hcond1_0 t).mpr h0) (fun h => h1 ((hcond1_1 t).mp h)))]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) ((hcond1_0 t).mpr h0) (fun h => h1 ((hcond1_1 t).mp h)) _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) ((hcond1_0 t).mpr h0) (fun h => h1 ((hcond1_1 t).mp h)) _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 16 = 15
    · rw [show (dat1 V c).leavesExact 3 t = owns (c : Thread nD τ) (st1_3 t) fullShare ((dat1 V c).after 3 t) from by
        unfold Dat.leavesExact; rw [liveAt1_3_C t (fun h => h0 ((hcond1_0 t).mp h)) ((hcond1_1 t).mpr h1)], after1_3]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) (fun h => h0 ((hcond1_0 t).mp h)) ((hcond1_1 t).mpr h1) _ _ _ _ _ _ _ _ _ _
        (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) (fun h => h1 ((hcond1_1 t).mp h)))
        (noFlush1_3_B t (fun h => h0 ((hcond1_0 t).mp h)) (fun h => h1 ((hcond1_1 t).mp h)))]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) (fun h => h0 ((hcond1_0 t).mp h)) (fun h => h1 ((hcond1_1 t).mp h)) _ _ _ _ _ _ _ _ _ _
        (iblk1 V c 0 t) (iblk1 V c 1 t) (iblk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HR⟩, Hg⟩
  isplitl [HS HR]
  · isplitl [HS]; · iexists _; iexact HS
    iexact HR
  iexact Hg

end Cert.KernelIdeal.Reg

end
-- ==== Proof.KI.Reg2.lean ====
/-
  A row-tiled product (the program has two such calls, of one shape). The grid has 8 points; at point t the body reads rows
  2048·t … 2048·t + 2047 of the left array (window 0) and the whole 128 × 128 right array (window 1), and stores
  their matrix product (operands narrowed first) into the same rows of the result (window 2). Stated at any
  contents V of the unscoped buffers at the region's entry: what each staging buffer holds after the body, the
  body's triple, the pipeline's proof data and its body obligation.
-/
import proofs.«137723_j44461501448910_1_alg».proof.Proof.Gen.KernelIdeal.Launch
import proofs.«137723_j44461501448910_1_alg».proof.Proof.Gen.KernelIdeal.Skeleton
import proofs.«137723_j44461501448910_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand is fetched once; its block index never moves, so its buffer holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S2048x128 := Rect.unit (s := S2048x128) ![0, 0] S2048x128.size inb_S2048x128_S2048x128_0_0
abbrev r2_b : Rect S128x128 := Rect.unit (s := S128x128) ![0, 0] S128x128.size inb_S128x128_S128x128_0_0

/-- The result's staging buffer after the body: one store of the product, over the whole buffer. -/
def out2_2 (x0 : Vec F S2048x128 .f32) (x1 : Vec F S128x128 .f32) : Vec F S2048x128 .f32 :=
  View.canon [⟨r2_a, k2_pay1 (View.ld x0 r2_a) (View.ld x1 r2_b)⟩]

theorem cover2_2 (p0 : Vec F S2048x128 .f32) (y : S2048x128.Idx) :
    ∃ pc ∈ ([⟨r2_a, p0⟩] : List (View.Piece (Elt F) S2048x128 .f32)), y ∈ pc.1.set :=
  View.cover_of_tiled [⟨r2_a, p0⟩] S2048x128.size (by rfl) y

set_option maxHeartbeats 1000000 in
/-- The body on whole staging memrefs: the two inputs are read and kept, the result's buffer ends at the product. -/
theorem sound_kernel2 (c : Dev nD) (E : Set ℕ) (i : grid2.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__small_matmul_kernel i arg1 harg1 arg2 harg2 arg3 harg3) K := by
  simp only [cc2__small_matmul_kernel_eq_skeleton]; unfold cc2__small_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data: arrays as the region finds them; after the body each input's buffer at its block,
    the result's at the product of the two blocks; the scoped rest untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Reg3.lean ====
/-
  The row-tiled product with a bias row. The grid has 8 points; at point t the body reads rows 2048·t … 2048·t + 2047
  of the left array (window 0), the whole 128 × 128 right array (window 1) and the 1 × 128 bias row (window 2), and
  stores the product of the two (operands narrowed first) plus the bias row repeated down the rows into the same rows
  of the result (window 3). Stated at any contents V of the unscoped buffers at the region's entry.
-/
import proofs.«137723_j44461501448910_1_alg».proof.Proof.Gen.KernelIdeal.Launch
import proofs.«137723_j44461501448910_1_alg».proof.Proof.Gen.KernelIdeal.Skeleton
import proofs.«137723_j44461501448910_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's staging buffer holds its block at every point, fetched there or not (an unfetched window's block
    index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2048x128 := Rect.unit (s := S2048x128) ![0, 0] S2048x128.size inb_S2048x128_S2048x128_0_0
abbrev r3_b : Rect S128x128 := Rect.unit (s := S128x128) ![0, 0] S128x128.size inb_S128x128_S128x128_0_0
abbrev r3_c : Rect S1x128 := Rect.unit (s := S1x128) ![0, 0] S1x128.size inb_S1x128_S1x128_0_0

/-- The result's staging buffer after the body: one store of product plus bias, over the whole buffer. -/
def out3_3 (x0 : Vec F S2048x128 .f32) (x1 : Vec F S128x128 .f32) (x2 : Vec F S1x128 .f32) : Vec F S2048x128 .f32 :=
  View.canon [⟨r3_a, k3_pay1 (View.ld x0 r3_a) (View.ld x1 r3_b) (View.ld x2 r3_c)⟩]

theorem cover3_3 (p0 : Vec F S2048x128 .f32) (y : S2048x128.Idx) :
    ∃ pc ∈ ([⟨r3_a, p0⟩] : List (View.Piece (Elt F) S2048x128 .f32)), y ∈ pc.1.set :=
  View.cover_of_tiled [⟨r3_a, p0⟩] S2048x128.size (by rfl) y

set_option maxHeartbeats 1000000 in
/-- The body on whole staging memrefs: the three inputs are read and kept, the result's buffer ends at product plus bias. -/
theorem sound_kernel3 (c : Dev nD) (E : Set ℕ) (i : grid3.Coords) (arg1 : Memref sig .tc .vmem S2048x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__small_matmul_bias_kernel i arg1 harg1 arg2 harg2 arg3 harg3 arg4 harg4) K := by
  simp only [cc3__small_matmul_bias_kernel_eq_skeleton]; unfold cc3__small_matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data: arrays as the region finds them; after the body each input's buffer at its block,
    the result's at product plus bias of the blocks; the scoped rest untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Reg4.lean ====
/-
  The last pallas_call: the adjacency product accumulated over 16 column tiles per row tile, plus a bias row and a
  residual block. The grid has 8 × 16 points, t = 16·i + k. At point t the body reads the 2048 × 1024 adjacency block
  (i, k) (window 0) and the 1024 × 128 support block k (window 1); a 2048 × 128 accumulator kept between points is
  zeroed at k = 0, then increased by the product of the two blocks (operands narrowed first) at every k; at k = 15
  the accumulator plus the 1 × 128 bias row (window 2) repeated down the rows plus the 2048 × 128 residual block i
  (window 3) is stored into the result's block i (window 4). At the other points the result's buffer is left as found
  and is not written back. Stated at any contents V of the unscoped buffers at the region's entry.
-/
import proofs.«137723_j44461501448910_1_alg».proof.Proof.Gen.KernelIdeal.Launch
import proofs.«137723_j44461501448910_1_alg».proof.Proof.Gen.KernelIdeal.Skeleton
import proofs.«137723_j44461501448910_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's staging buffer holds its block at every point, fetched there or not (an unfetched window's block
    index has not moved since its last fetch). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S2048x1024 := Rect.unit (s := S2048x1024) ![0, 0] S2048x1024.size inb_S2048x1024_S2048x1024_0_0
abbrev r4_b : Rect S1024x128 := Rect.unit (s := S1024x128) ![0, 0] S1024x128.size inb_S1024x128_S1024x128_0_0
abbrev r4_c : Rect S1x128 := Rect.unit (s := S1x128) ![0, 0] S1x128.size inb_S1x128_S1x128_0_0
abbrev r4_d : Rect S2048x128 := Rect.unit (s := S2048x128) ![0, 0] S2048x128.size inb_S2048x128_S2048x128_0_0

/-- The zero offsets of a whole-buffer rectangle of rank 2. -/
theorem hz4 : (![0, 0] : Fin 2 → Nat) = fun _ => 0 := funext fun a => by fin_cases a <;> rfl

/-- One store over the whole 2048 × 128 buffer covers it, whatever was stored before. -/
theorem cover4_d (p0 : Vec F S2048x128 .f32) (L : List (View.Piece (Elt F) S2048x128 .f32)) (y : S2048x128.Idx) :
    ∃ pc ∈ ((⟨r4_d, p0⟩ : View.Piece (Elt F) S2048x128 .f32) :: L), y ∈ pc.1.set :=
  ⟨_, List.mem_cons_self, View.mem_set_unit_zero hz4 inb_S2048x128_S2048x128_0_0 y⟩

/-! ## The body's two conditions on the grid's coordinates -/

/-- The first conditional's condition: the column-tile coordinate is 0. -/
abbrev cond4_0 (i : grid4.Coords) : Prop := (Scalar.cmpi .ne (Scalar.extui (Scalar.cmpi .eq (BitVec.ofNat 32 (i 1).val) 0#32)) 0#32) = 1#1
/-- It holds at the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)
/-- The second conditional's condition: the column-tile coordinate is 15. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- At the first column tile nothing is stored into the result's buffer, -/
theorem idleAt4_4_A : ∀ t : Fin cfg4.N, cond4_0 (grid4.coords t) → ¬cond4_1 (grid4.coords t) → cfg4.idle 4 (grid4.coords t) = true := by decide +kernel
/-- and its block is not written back there. -/
theorem noFlush4_4_A : ∀ t : Fin cfg4.N, cond4_0 (grid4.coords t) → ¬cond4_1 (grid4.coords t) → (cfg4.win 4).flush t = false := by decide +kernel
/-- The same at the column tiles strictly between the first and the last. -/
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
/-- At the last column tile the result's buffer is stored into. -/
theorem liveAt4_4_C : ∀ t : Fin cfg4.N, ¬cond4_0 (grid4.coords t) → cond4_1 (grid4.coords t) → cfg4.idle 4 (grid4.coords t) = false := by decide +kernel

set_option maxHeartbeats 1000000 in
/-- Strictly between the first and the last column tile: the accumulator grows by the product of the two blocks; the
    inputs are read and kept, the result's buffer is handed back as found. -/
theorem sound_kernel4_B (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : ¬cond4_0 i) (hc1 : ¬cond4_1 i) (x0 : Vec F S2048x1024 .f32) (x1 : Vec F S1024x128 .f32) (x2 : Vec F S1x128 .f32) (x3 : Vec F S2048x128 .f32)
    (xi : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k4_pay2 x0 x1 xs)) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%fi, %hfi, H4⟩, ⟨%fs, %hfs, HS⟩, Hk⟩
  subst hf0; subst hf1; subst hf2; subst hf3; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fi; isplitr; · ipureintro; rfl
    iexact H4
  iexists _; isplitr
  swap; · iexact HS
  ipureintro
  rw [View.read_writes_eq_canon _ _ _ (cover4_d _ []), View.canon_unit_zero hz4]
  simp only [View.readAt_eq_ld, View.ld_unit_zero (S := S2048x1024) hz4, View.ld_unit_zero (S := S1024x128) hz4, View.ld_unit_zero (S := S2048x128) hz4]

set_option maxHeartbeats 1000000 in
/-- At the first column tile: the accumulator is zeroed, then grows by the product of the two blocks; the inputs are
    read and kept, the result's buffer is handed back as found. -/
theorem sound_kernel4_A (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : cond4_0 i) (hc1 : ¬cond4_1 i) (x0 : Vec F S2048x1024 .f32) (x1 : Vec F S1024x128 .f32) (x2 : Vec F S1x128 .f32) (x3 : Vec F S2048x128 .f32)
    (xi : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare (k4_pay2 x0 x1 (k4_pay1 (F := F)))) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%fi, %hfi, H4⟩, ⟨%ds, %fs, -, HS⟩, Hk⟩
  subst hf0; subst hf1; subst hf2; subst hf3; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists fi; isplitr; · ipureintro; rfl
    iexact H4
  iexists _; isplitr
  swap; · iexact HS
  ipureintro
  sl_unfold_words
  rw [View.read_writes_eq_canon _ _ _ (cover4_d _ _), View.canon_cons_unit_zero (S := S2048x128) hz4]
  simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]

set_option maxHeartbeats 1000000 in
/-- At the last column tile: the accumulator grows by the product of the two blocks, and the result's buffer is
    stored whole at the accumulator plus the bias row plus the residual block; the inputs are read and kept. -/
theorem sound_kernel4_C (c : Dev nD) (E : Set ℕ) (i : grid4.Coords) (arg2 : Memref sig .tc .vmem S2048x1024 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (hc0 : ¬cond4_0 i) (hc1 : cond4_1 i) (x0 : Vec F S2048x1024 .f32) (x1 : Vec F S1024x128 .f32) (x2 : Vec F S1x128 .f32) (x3 : Vec F S2048x128 .f32)
    (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k4_pay3 (k4_pay2 x0 x1 xs) x2 x3) ∗ owns (c : Thread nD τ) arg7 fullShare (k4_pay2 x0 x1 xs)) -∗ K ⟨⟩))
      ⊢ wp frame (wpE (defs₀ (F := F)) Variants.none c none) E (cc4__gcn_resid_kernel i arg2 harg2 arg3 harg3 arg4 harg4 arg5 harg5 arg6 harg6 arg7 harg7) K := by
  simp only [cc4__gcn_resid_kernel_eq_skeleton]; unfold cc4__gcn_resid_kernel_skel
  unfold owns
  iintro ⟨⟨%f0, %hf0, H0⟩, ⟨%f1, %hf1, H1⟩, ⟨%f2, %hf2, H2⟩, ⟨%f3, %hf3, H3⟩, ⟨%di, %fi, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover4_d _ []), View.canon_unit_zero hz4]
    simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]
  iexists _; isplitr
  swap; · iexact HS
  ipureintro
  sl_unfold_words
  rw [View.read_writes_eq_canon _ _ _ (cover4_d _ []), View.canon_unit_zero hz4]
  simp only [View.readAt_eq_ld, View.readCov_unit_zero (S := S2048x128) _ hz4, View.ld_unit_zero (S := S2048x1024) hz4, View.ld_unit_zero (S := S1024x128) hz4, View.ld_unit_zero (S := S2048x128) hz4, View.ld_unit_zero (S := S1x128) hz4]

/-! ## The accumulator point by point -/

/-- The accumulator after the body at point n: the product of the point's two blocks added to zero at the first column
    tile of a row tile, and to what the point before left at every other. -/
def acc4 (c : Dev nD) : (n : ℕ) → n < cfg4.N → Vec F S2048x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩)
      (if (n + 1) % 16 = 0 then k4_pay1 (F := F) else acc4 c n (Nat.lt_of_succ_lt h))

/-- At the first column tile of a row tile the sum starts from zero. -/
theorem acc4_reset (c : Dev nD) (t : Fin cfg4.N) (h : t.val % 16 = 0) :
    acc4 V c t.val t.isLt = k4_pay2 (iblk4 V c 0 t) (iblk4 V c 1 t) (k4_pay1 (F := F)) := by
  obtain ⟨n, hn⟩ := t
  cases n with
  | zero => exact rfl
  | succ n => exact congrArg (k4_pay2 (iblk4 V c 0 ⟨n + 1, hn⟩) (iblk4 V c 1 ⟨n + 1, hn⟩)) (if_pos h)

/-- At every other column tile it continues from what the point before left. -/
theorem acc4_step (c : Dev nD) (t : Fin cfg4.N) (h : ¬ t.val % 16 = 0) :
    acc4 V c t.val t.isLt = k4_pay2 (iblk4 V c 0 t) (iblk4 V c 1 t) (acc4 V c (t.val - 1) (by omega)) := by
  obtain ⟨n, hn⟩ := t
  cases n with
  | zero => exact absurd (Nat.zero_mod _) h
  | succ n => exact congrArg (k4_pay2 (iblk4 V c 0 ⟨n + 1, hn⟩) (iblk4 V c 1 ⟨n + 1, hn⟩)) (if_neg h)

/-! ## The invariant: the accumulator's buffer beside what the body never touches -/

/-- The accumulator's buffer, whole. -/
abbrev scM4 : Memref sig .tc .vmem S2048x128 .f32 := Memref.whole cc4_scratch0

/-- What the launch hands the region, with the accumulator's buffer taken out of the scoped rest and owned at some
    contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The invariant before position n: before the first point what the launch hands over; afterwards the accumulator's
    buffer at what the point before left in it, the other scoped buffers at some contents and the generator register
    at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The arrays as the region finds them; after the body each input's buffer at its block and the result's at the
    accumulator plus bias row plus residual block (read only where the block is written back: at the last column
    tile); the invariant above; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (iblk4 V c 2 t) (iblk4 V c 3 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (acc4 V c t.val t.isLt) (iblk4 V c 2 t) (iblk4 V c 3 t) := by dsimp only [dat4]
/-- The block written back at the last column tile of a row tile. -/
theorem after4_4_last (c : Dev nD) (t : Fin cfg4.N) (h : t.val % 16 = 15) :
    (dat4 V c).after 4 t = k4_pay3 (acc4 V c t.val t.isLt) (iblk4 V c 2 t) (iblk4 V c 3 t) := after4_4 V c t

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in
/-- The body at any point: the inputs' buffers hold their blocks; the point's residue mod 16 says which of the three
    cases it is in; the invariant hands the body the accumulator's buffer at what the point before left (at anything
    before the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 128 := lt_of_lt_of_eq t.isLt (show cfg4.N = 128 from N_4)
  by_cases h0 : t.val % 16 = 0
  · have h1 : ¬ t.val % 16 = 15 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4_A t hc0 hc1) (noFlush4_4_A t hc0 hc1)]
    rw [acc4_reset V c t h0]
    by_cases hz : t.val = 0
    · rw [PhiS4_castSucc V c t, PhiS4_zero V c _ _ hz, PhiA4_eq]
      iintro ⟨⟨⟨HS, Hb⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
    · rw [PhiS4_castSucc V c t, PhiS4_pos V c _ _ hz]
      iintro ⟨⟨⟨HS, Hb⟩, Hg⟩, Ho, ⟨%d0, H0⟩, ⟨%d1, H1⟩, ⟨%d2, H2⟩, ⟨%d3, H3⟩, ⟨%d4, H4⟩⟩
      iapply (sound_kernel4_A c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond4_0 (grid4.coords t) := fun h => h0 ((hcond4_0 t).mp h)
    rw [acc4_step V c t h0]
    rw [PhiS4_castSucc V c t, PhiS4_pos V c _ _ hz]
    by_cases h1 : t.val % 16 = 15
    · have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4_C t hc0 hc1], after4_4, acc4_step V c t h0]
      iintro ⟨⟨⟨HS, Hb⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ hc0 hc1 (iblk4 V c 0 t) (iblk4 V c 1 t) (iblk4 V c 2 t) (iblk4 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexact H4
    · have hc1 : ¬cond4_1 (grid4.coords t) := fun h => h1 ((hcond4_1 t).mp h)
      rw [Dat.leavesExact_idle (dat4 V c) 4 t (idleAt4_4_B t hc0 hc1) (noFlush4_4_B t hc0 hc1)]
      iintro ⟨⟨⟨HS, Hb⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ hc0 hc1 (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the scoped rest back: what the accumulator holds is forgotten. -/
theorem Phi4_out (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨HS, Hb⟩, Hg⟩
  isplitl [HS Hb]
  · isplitl [HS]
    · iexists _; iexact HS
    iexact Hb
  iexact Hg

/-- After the last point the invariant gives the scoped rest back. -/
theorem hout4 (c : Dev nD) : (dat4 V c).Φ (Fin.last cfg4.N) ⊢ (Pipeline.ΦA spec4 c : sProp 𝕄) :=
  Phi4_out V c _ (by rw [Fin.val_last]; have : cfg4.N = 128 := N_4; omega)

end Cert.KernelIdeal.Reg

end
-- ==== Proof.KI.Run.lean ====
/-
  The run of @main: five kernel regions among three stretches of host operations, in the order
  region 0; a reshape of the first bias; region 1; region 2; a transpose and a reshape; region 3; a reshape; region 4.

  The TensorCore's buffer contents at each boundary are a fold from the launch memory: a host stretch moves them by
  the operations' results, a region leaves its windows' arrays at what its write-backs fold to and every other buffer
  as it found it. Each region's proof data are taken at the contents the fold gives at its entry. No host operation
  and no region writes an argument array (a region reads one through an input window or bypasses it), so the fold at
  an argument walks back to the launch memory; that is the frame claim. The result array is the last region's output
  window at the end of its grid.
-/
import proofs.«137723_j44461501448910_1_alg».proof.Proof.KI.Reg0
import proofs.«137723_j44461501448910_1_alg».proof.Proof.KI.Reg1
import proofs.«137723_j44461501448910_1_alg».proof.Proof.KI.Reg2
import proofs.«137723_j44461501448910_1_alg».proof.Proof.KI.Reg3
import proofs.«137723_j44461501448910_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch (region 0 is entered from them). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first bias is reshaped to a row (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- The reshape writes the bias row only. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (region 2 is entered from region 1's exit contents). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the residual weight is transposed and the residual bias reshaped to a row (region 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- The two operations write the transposed weight and the bias row only. -/
theorem W5_of_ne (c : Dev nD) (b : Ref sig .tc) (hb4 : b ≠ main_v4) (hb5 : b ≠ main_v5) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne hb4, StableHlo.devRef_ne_of_ne hb5⟩))

/-- At region 3's exit. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the second bias is reshaped to a row (region 4's entry). -/
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
/-- The reshape writes the bias row only. -/
theorem W7_of_ne (c : Dev nD) (b : Ref sig .tc) (hb : b ≠ main_v7) :
    W7 m ρ c (Proc.devRef .tc b) = W6 m ρ c (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

/-- At region 4's exit: the contents the run ends at. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ## The arguments end as launched

No host operation writes an argument, and a region either reads it through an input window (whose array the
pipeline leaves as it found it) or does not touch it; so the fold at an argument walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The adjacency is the first input window of regions 1 and 4. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := (W8_arr m ρ c 0).trans (((dat4 (V7 m ρ) c).arrAt_in 0 rfl _).trans (A_eq4 (V7 m ρ) c 0))
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide) (by decide)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- The first layer's weight is region 0's second input window. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide) (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- The first bias is read by a host reshape only. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide) (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The second layer's weight is region 2's second input window. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide) (by decide)
    _ = W3 m ρ c (Proc.devRef .tc main_arg4) := (W4_arr m ρ c 1).trans (((dat2 (V3 m ρ) c).arrAt_in 1 rfl _).trans (A_eq2 (V3 m ρ) c 1))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- The second bias is read by a host reshape only. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide) (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The residual weight is read by a host transpose only. -/
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide) (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- The residual bias is read by a host reshape only. -/
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide) (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-! ## The result array, and what each region finds at its entry -/

/-- The result is region 4's output window at the end of its grid. -/
theorem W8_out (c : Dev nD) : W8 m ρ c (Proc.devRef .tc main_v8) = (dat4 (V7 m ρ) c).arrAt 4 cfg4.N := W8_arr m ρ c 4

/-- Region 0 reads the features and the first weight as launched. -/
theorem entry0_main_arg0 (c : Dev nD) : V0 m ρ c main_arg0 = m ((c : Thread nD τ).loc main_arg0) := rfl
theorem entry0_main_arg2 (c : Dev nD) : V0 m ρ c main_arg2 = m ((c : Thread nD τ).loc main_arg2) := rfl

/-- Region 1 finds region 0's product (the reshape between them does not write it) -/
theorem entry1_main_v0 (c : Dev nD) : V2 m ρ c main_v0 = (dat0 (V0 m ρ) c).arrAt 2 cfg0.N :=
  (W2_of_ne m ρ c main_v0 (by decide)).trans (W1_arr m ρ c 2)
/-- and the adjacency as launched. -/
theorem entry1_main_arg1 (c : Dev nD) : V2 m ρ c main_arg1 = m ((c : Thread nD τ).loc main_arg1) :=
  (W2_of_ne m ρ c main_arg1 (by decide)).trans (W1_of_ne m ρ c main_arg1 (by decide))

/-- Region 2 finds the first layer's output as region 1 left it -/
theorem entry2_main_v2 (c : Dev nD) : V3 m ρ c main_v2 = (dat1 (V2 m ρ) c).arrAt 3 cfg1.N := W3_arr m ρ c 3
/-- and the second weight as launched. -/
theorem entry2_main_arg4 (c : Dev nD) : V3 m ρ c main_arg4 = m ((c : Thread nD τ).loc main_arg4) :=
  (W3_of_ne m ρ c main_arg4 (by decide)).trans ((W2_of_ne m ρ c main_arg4 (by decide)).trans (W1_of_ne m ρ c main_arg4 (by decide)))

/-- Region 3 finds the same first-layer output: region 2 only read it, the host stretch does not write it. -/
theorem entry3_main_v2 (c : Dev nD) : V5 m ρ c main_v2 = (dat1 (V2 m ρ) c).arrAt 3 cfg1.N :=
  (W5_of_ne m ρ c main_v2 (by decide) (by decide)).trans
    (((W4_arr m ρ c 0).trans (((dat2 (V3 m ρ) c).arrAt_in 0 rfl _).trans (A_eq2 (V3 m ρ) c 0))).trans (W3_arr m ρ c 3))

/-- Region 4 finds region 2's product, -/
theorem entry4_main_v3 (c : Dev nD) : V7 m ρ c main_v3 = (dat2 (V3 m ρ) c).arrAt 2 cfg2.N :=
  (W7_of_ne m ρ c main_v3 (by decide)).trans ((W6_of_ne m ρ c main_v3 (by decide)).trans
    ((W5_of_ne m ρ c main_v3 (by decide) (by decide)).trans (W4_arr m ρ c 2)))
/-- region 3's residual, -/
theorem entry4_main_v6 (c : Dev nD) : V7 m ρ c main_v6 = (dat3 (V5 m ρ) c).arrAt 3 cfg3.N :=
  (W7_of_ne m ρ c main_v6 (by decide)).trans (W6_arr m ρ c 3)
/-- and the adjacency as launched. -/
theorem entry4_main_arg1 (c : Dev nD) : V7 m ρ c main_arg1 = m ((c : Thread nD τ).loc main_arg1) :=
  (W7_of_ne m ρ c main_arg1 (by decide)).trans ((W6_of_ne m ρ c main_arg1 (by decide)).trans
    ((W5_of_ne m ρ c main_arg1 (by decide) (by decide)).trans ((W4_of_ne m ρ c main_arg1 (by decide)).trans
      (((W3_arr m ρ c 0).trans (((dat1 (V2 m ρ) c).arrAt_in 0 rfl _).trans (A_eq1 (V2 m ρ) c 0))).trans
        ((W2_of_ne m ρ c main_arg1 (by decide)).trans (W1_of_ne m ρ c main_arg1 (by decide)))))))

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies of units owed, at nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends at the
    contents the operations' results give. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the contents the run ends at, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at the launch contents, left at W1. Its arrays
    are split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its invariant is not the
    same assertion at every point (an accumulator is carried between the points of a row); what the launch hands it
    is the invariant before the first point, and after the last point the invariant gives the scoped rest back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine .trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W3 (region 1's exit), left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W5, left at W6. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W7, left at W8, the contents the run ends
    at; its post is the last thread state beside the core owing nothing. Like region 1 its invariant varies with the
    point, and its two ends are reached through the same two facts. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V7 m ρ) c).Φ 0 from rfl]
    refine .trans ?_ (hin4 (V7 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V7 m ρ) c).Φ (Fin.last cfg4.N) from rfl]
    refine (hout4 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ) ]
/-- @main is the run of the segments: it is the chain of its items, and the segments' run is that chain. -/
theorem main_run (c : Dev nD) : main (F := F) c = Pipeline.Seg.run (segs m ρ) := (main_chain c).trans (by chain_rfl)

set_option backward.isDefEq.respectTransparency.types false in
/-- The run: from any memory with zero counters every weakly fair execution of @main on the TensorCores terminates,
    nothing faulting, and in every final state each unscoped buffer holds what the fold ends at. The launch makes
    the first thread state; each segment's post is the next one's pre; the last thread state is read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The frame claim at any float instance: the run terminates, nothing faulting, and every argument array ends as
    launched; each conjunct is the run's final contents at that argument, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c)⟩) (run_all m ρ)

end Cert.KernelIdeal.Reg

end
-- ==== Proof.KI.Val.lean ====
/-
  What the kernel stores, read at an index, with floats read as extended reals.

  Every value a body stores is a 2048 × 128 matrix. Entry (p, q) of a product of an m × K matrix with a K × 128 matrix,
  accumulated into the zero matrix, is the sum over the contracted coordinate of the products of the entries; narrowing
  an operand's format and recasting a matrix to its own shape change nothing; a 1 × 128 row repeated down the rows reads
  its entry q at every (p, q).
-/
import proofs.«137723_j44461501448910_1_alg».proof.Proof.KI.Reg0
import proofs.«137723_j44461501448910_1_alg».proof.Proof.KI.Reg2
import proofs.«137723_j44461501448910_1_alg».proof.Proof.KI.Reg3
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

/-! ## The two products at an index -/

theorem lhs_small_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_small_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_small_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_small_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A 2048 × 128 matrix times a 128 × 128 matrix, accumulated into the zero matrix, at (p, q): the sum over the
    contracted coordinate of the products of the entries. -/
theorem mm_small_apply {φ₁ φ₂ : FTy} (a : FVec Ideal S2048x128 φ₁) (b : FVec Ideal S128x128 φ₂) (p : Fin 2048) (q : Fin 128) :
    matmul dot_S2048x128_S128x128_S2048x128_1_0_0_1_n_n none a b (constant (F := Ideal) S2048x128 .f32 0x00000000#32) (ix2 p q)
      = ∑ d : Fin 128, a (ix2 p d) * b (ix2 d q) := by
  refine (Ideal.matmul_constant_zero_apply dot_S2048x128_S128x128_S2048x128_1_0_0_1_n_n none a b (ix2 p q)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_small_0 _ _
    | ⟨1, _⟩ => exact (lhs_small_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_small_0 _ _).trans hk
    | ⟨1, _⟩ => exact rhs_small_1 _ _)
  rw [el, er]

theorem lhs_wide_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_wide_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_wide_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_wide_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- A 2048 × 1024 matrix times a 1024 × 128 matrix, accumulated into the zero matrix, at (p, q): the sum over the
    contracted coordinate of the products of the entries. -/
theorem mm_wide_apply {φ₁ φ₂ : FTy} (a : FVec Ideal S2048x1024 φ₁) (b : FVec Ideal S1024x128 φ₂) (p : Fin 2048) (q : Fin 128) :
    matmul dot_S2048x1024_S1024x128_S2048x128_1_0_0_1_n_n none a b (constant (F := Ideal) S2048x128 .f32 0x00000000#32) (ix2 p q)
      = ∑ d : Fin 1024, a (ix2 p d) * b (ix2 d q) := by
  refine (Ideal.matmul_constant_zero_apply dot_S2048x1024_S1024x128_S2048x128_1_0_0_1_n_n none a b (ix2 p q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_wide_0 _ _
    | ⟨1, _⟩ => exact (lhs_wide_1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_wide_0 _ _).trans hk
    | ⟨1, _⟩ => exact rhs_wide_1 _ _)
  rw [el, er]

/-! ## The stored values at an index -/

/-- One row repeated down 2048 rows reads, at (p, q), the row's entry q. -/
theorem biasRows_apply (v : Vec Ideal S1x128 .f32) (p : Fin 2048) (q : Fin 128) :
    broadcastTo S2048x128 (shapeCast S1x128 v shapeCasts_S1x128_S1x128) broadcasts_S1x128_S2048x128 (ix2 p q) = v (ix2 (0 : Fin 1) q) := by
  rw [broadcastTo_1b_ab_apply, shapeCast_self]

/-- The first region's stored block: the product of the two blocks. -/
theorem pay_mm_apply (v0 : Vec Ideal S2048x128 .f32) (v2 : Vec Ideal S128x128 .f32) (p : Fin 2048) (q : Fin 128) :
    k0_pay1 v0 v2 (ix2 p q) = ∑ d : Fin 128, v0 (ix2 p d) * v2 (ix2 d q) := by
  unfold k0_pay1
  refine (mm_small_apply _ _ p q).trans ?_
  rfl

theorem k0_pay1_apply (v0 : Vec Ideal S2048x128 .f32) (v2 : Vec Ideal S128x128 .f32) (p : Fin 2048) (q : Fin 128) :
    k0_pay1 v0 v2 (ix2 p q) = ∑ d : Fin 128, v0 (ix2 p d) * v2 (ix2 d q) := pay_mm_apply v0 v2 p q

/-- The third region's stored block: the product of the two blocks. -/
theorem k2_pay1_apply (v0 : Vec Ideal S2048x128 .f32) (v3 : Vec Ideal S128x128 .f32) (p : Fin 2048) (q : Fin 128) :
    k2_pay1 v0 v3 (ix2 p q) = ∑ d : Fin 128, v0 (ix2 p d) * v3 (ix2 d q) := by
  unfold k2_pay1
  refine (mm_small_apply _ _ p q).trans ?_
  simp only [truncf_apply, shapeCast_self]

/-- The fourth region's stored block: the product of the two blocks plus the bias row. -/
theorem k3_pay1_apply (v0 : Vec Ideal S2048x128 .f32) (v3 : Vec Ideal S128x128 .f32) (v7 : Vec Ideal S1x128 .f32) (p : Fin 2048) (q : Fin 128) :
    k3_pay1 v0 v3 v7 (ix2 p q) = (∑ d : Fin 128, v0 (ix2 p d) * v3 (ix2 d q)) + v7 (ix2 (0 : Fin 1) q) := by
  unfold k3_pay1
  rw [addf_apply, biasRows_apply, mm_small_apply]
  simp only [truncf_apply, shapeCast_self]

/-- The accumulator's first value: zero everywhere. -/
theorem k1_pay1_apply (p : Fin 2048) (q : Fin 128) : k1_pay1 (F := Ideal) (ix2 p q) = 0 := by
  unfold k1_pay1
  rw [shapeCast_self, broadcast_apply]
  exact Ideal.ofBits_zero_f32
theorem k4_pay1_apply (p : Fin 2048) (q : Fin 128) : k4_pay1 (F := Ideal) (ix2 p q) = 0 := by
  unfold k4_pay1
  rw [shapeCast_self, broadcast_apply]
  exact Ideal.ofBits_zero_f32

/-- The accumulator's next value: what it held plus the product of the two blocks. -/
theorem k1_pay2_apply (v3 : Vec Ideal S2048x1024 .f32) (v5 : Vec Ideal S1024x128 .f32) (v8 : Vec Ideal S2048x128 .f32) (p : Fin 2048) (q : Fin 128) :
    k1_pay2 v3 v5 v8 (ix2 p q) = v8 (ix2 p q) + ∑ kk : Fin 1024, v3 (ix2 p kk) * v5 (ix2 kk q) := by
  unfold k1_pay2
  rw [shapeCast_self, addf_apply, mm_wide_apply]
  simp only [truncf_apply, shapeCast_self]
theorem k4_pay2_apply (v3 : Vec Ideal S2048x1024 .f32) (v5 : Vec Ideal S1024x128 .f32) (v8 : Vec Ideal S2048x128 .f32) (p : Fin 2048) (q : Fin 128) :
    k4_pay2 v3 v5 v8 (ix2 p q) = v8 (ix2 p q) + ∑ kk : Fin 1024, v3 (ix2 p kk) * v5 (ix2 kk q) := by
  unfold k4_pay2
  rw [shapeCast_self, addf_apply, mm_wide_apply]
  simp only [truncf_apply, shapeCast_self]

/-- The result block at the last step: the accumulator plus the bias row. -/
theorem k1_pay3_apply (v17 : Vec Ideal S2048x128 .f32) (v18 : Vec Ideal S1x128 .f32) (p : Fin 2048) (q : Fin 128) :
    k1_pay3 v17 v18 (ix2 p q) = v17 (ix2 p q) + v18 (ix2 (0 : Fin 1) q) := by
  unfold k1_pay3
  rw [addf_apply, biasRows_apply]

/-- The last region's result block at the last step: accumulator plus bias row, plus the residual block. -/
theorem k4_pay3_apply (v17 : Vec Ideal S2048x128 .f32) (v18 : Vec Ideal S1x128 .f32) (v22 : Vec Ideal S2048x128 .f32) (p : Fin 2048) (q : Fin 128) :
    k4_pay3 v17 v18 v22 (ix2 p q) = (v17 (ix2 p q) + v18 (ix2 (0 : Fin 1) q)) + v22 (ix2 p q) := by
  unfold k4_pay3
  rw [addf_apply, addf_apply, biasRows_apply, shapeCast_self]

end Cert.KernelIdeal.Val

end
-- ==== Proof.KI.Val2.lean ====
/-
  The arrays the three row-tiled regions leave, read at an index, with floats read as extended reals.

  Each region's grid has 8 points; point t stores the block of rows 2048·t … 2048·t + 2047 of its result. Row r of
  the result therefore lies in the block numbered r / 2048, and what was stored there is row r of the left array
  times the whole right array (plus the bias row, in the region that has one): the left block at point t is the same
  rows of the left array, and the right array and the bias row are single blocks that never move. The blocks tile the
  result, so the array the region leaves is that one function of the arrays it found.
-/
import proofs.«137723_j44461501448910_1_alg».proof.Proof.KI.Val

set_option maxRecDepth 16384

noncomputable section

namespace Cert.KernelIdeal.Val

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

-- the TensorCore's buffer contents when a region is entered
variable (V : (c : Dev nD) → (b : Ref sig .tc) → Buf (Elt Ideal) ((c : Thread nD τ).loc b))

/-- A block's rectangle starts at the origin of its staging buffer. -/
theorem hz : (![0, 0] : Fin 2 → Nat) = fun _ => 0 := funext fun a => by fin_cases a <;> rfl

/-- Every row of the left array times the right array. -/
def rowsTimes (a : S16384x128.Idx → Elt Ideal .f32) (b : S128x128.Idx → Elt Ideal .f32) : S16384x128.Idx → Elt Ideal .f32 :=
  fun i => ∑ d : Fin 128, a (ix2 (⟨(i 0).val, idx2_lt0 i⟩ : Fin 16384) d) * b (ix2 d (⟨(i 1).val, idx2_lt1 i⟩ : Fin 128))

/-- Entry (r, j) of it: row r of the left array against column j of the right array. -/
theorem rowsTimes_ix2 (a : S16384x128.Idx → Elt Ideal .f32) (b : S128x128.Idx → Elt Ideal .f32) (r : Fin 16384) (j : Fin 128) :
    rowsTimes a b (ix2 r j) = ∑ d : Fin 128, a (ix2 r d) * b (ix2 d j) := rfl

/-! ## Region 0: a row-tiled product -/

/-- The printed index maps over the grid: point t takes the block of rows numbered t of the left array and of the
    result, and the one block of the right array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the rows-times-matrix function of the arrays the region found. -/
theorem flushed0_eq (c : Dev nD) (t : Fin cfg0.N) :
    (Reg.dat0 (F := Ideal) V c).flushed 2 t = ((cfg0.win 2).blk t).view.read (Elt Ideal) (rowsTimes (V c main_arg0) (V c main_arg2)) := by
  show (cfg0.win 2).cut (grid0.coords t) ((Reg.dat0 V c).after 2 t) = _
  rw [Reg.after0_2]
  unfold Reg.out0_2
  rw [View.canon_unit_zero hz]
  simp only [View.ld_unit_zero (S := S2048x128) hz, View.ld_unit_zero (S := S128x128) hz]
  funext y
  obtain ⟨p, q, rfl⟩ : ∃ (p : Fin 2048) (q : Fin 128), y = ix2 p q := ⟨y 0, y 1, eq_ix2 y⟩
  show k0_pay1 (Reg.iblk0 V c 0 t) (Reg.iblk0 V c 1 t) (ix2 p q)
    = rowsTimes (V c main_arg0) (V c main_arg2) (((cfg0.win 2).blk t).view.emb (ix2 p q))
  refine (k0_pay1_apply _ _ p q).trans ?_
  unfold rowsTimes
  refine Finset.sum_congr rfl fun d _ => ?_
  obtain ⟨e0, e1, e2, e3, e4, e5⟩ := idx_facts0 t
  congr 1
  · show V c main_arg0 (((cfg0.win 0).blk t).view.emb (ix2 p d)) = _
    refine congrArg (V c main_arg0) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 128 + 1 * d.val = d.val; omega
  · show V c main_arg2 (((cfg0.win 1).blk t).view.emb (ix2 d q)) = _
    refine congrArg (V c main_arg2) (funext fun a => Fin.ext ?_)
    match a with
    | ⟨0, _⟩ => show win0_1.index t (0 : Fin 2) * 128 + 1 * d.val = d.val; omega
    | ⟨1, _⟩ => show win0_1.index t (1 : Fin 2) * 128 + 1 * q.val = win0_2.index t (1 : Fin 2) * 128 + 1 * q.val; omega

/-- An index of the result is in point t's block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v0).slice (win0_2.rect t)).set ↔ _
  rw [View.set_slice_whole, Rect.mem_set_unit]
  exact Iff.rfl

/-- Row r lies in the block numbered r / 2048: the blocks tile the result. -/
theorem cover0 (i : S16384x128.Idx) : ∃ t : Fin cfg0.N, (cfg0.win 2).flush t = true ∧ i ∈ ((cfg0.win 2).blk t).view.set := by
  have hi0 : (i 0).val < 16384 := idx2_lt0 i
  have hi1 : (i 1).val < 128 := idx2_lt1 i
  obtain ⟨t, ht⟩ : ∃ t : Fin cfg0.N, t.val = (i 0).val / 2048 := ⟨⟨(i 0).val / 2048, by show _ < 8; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The array the region leaves: every row of the left array times the right array. -/
theorem arr0_eq (c : Dev nD) : (Reg.dat0 (F := Ideal) V c).arrAt 2 cfg0.N = rowsTimes (V c main_arg0) (V c main_arg2) :=
  (Reg.dat0 (F := Ideal) V c).arrAt_eq_of_cover 2 _ (fun t _ => flushed0_eq V c t) (cover0)

/-! ## Region 2: a row-tiled product -/

/-- The printed index maps over the grid: point t takes the block of rows numbered t of the left array and of the
    result, and the one block of the right array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the rows-times-matrix function of the arrays the region found. -/
theorem flushed2_eq (c : Dev nD) (t : Fin cfg2.N) :
    (Reg.dat2 (F := Ideal) V c).flushed 2 t = ((cfg2.win 2).blk t).view.read (Elt Ideal) (rowsTimes (V c main_v2) (V c main_arg4)) := by
  show (cfg2.win 2).cut (grid2.coords t) ((Reg.dat2 V c).after 2 t) = _
  rw [Reg.after2_2]
  unfold Reg.out2_2
  rw [View.canon_unit_zero hz]
  simp only [View.ld_unit_zero (S := S2048x128) hz, View.ld_unit_zero (S := S128x128) hz]
  funext y
  obtain ⟨p, q, rfl⟩ : ∃ (p : Fin 2048) (q : Fin 128), y = ix2 p q := ⟨y 0, y 1, eq_ix2 y⟩
  show k2_pay1 (Reg.iblk2 V c 0 t) (Reg.iblk2 V c 1 t) (ix2 p q)
    = rowsTimes (V c main_v2) (V c main_arg4) (((cfg2.win 2).blk t).view.emb (ix2 p q))
  refine (k2_pay1_apply _ _ p q).trans ?_
  unfold rowsTimes
  refine Finset.sum_congr rfl fun d _ => ?_
  obtain ⟨e0, e1, e2, e3, e4, e5⟩ := idx_facts2 t
  congr 1
  · show V c main_v2 (((cfg2.win 0).blk t).view.emb (ix2 p d)) = _
    refine congrArg (V c main_v2) (funext fun a => Fin.ext ?_)
    match a with
    | ⟨0, _⟩ => show win2_0.index t (0 : Fin 2) * 2048 + 1 * p.val = win2_2.index t (0 : Fin 2) * 2048 + 1 * p.val; omega
    | ⟨1, _⟩ => show win2_0.index t (1 : Fin 2) * 128 + 1 * d.val = d.val; omega
  · show V c main_arg4 (((cfg2.win 1).blk t).view.emb (ix2 d q)) = _
    refine congrArg (V c main_arg4) (funext fun a => Fin.ext ?_)
    match a with
    | ⟨0, _⟩ => show win2_1.index t (0 : Fin 2) * 128 + 1 * d.val = d.val; omega
    | ⟨1, _⟩ => show win2_1.index t (1 : Fin 2) * 128 + 1 * q.val = win2_2.index t (1 : Fin 2) * 128 + 1 * q.val; omega

/-- An index of the result is in point t's block iff each coordinate is in the block's range on its axis. -/
theorem mem_blk2 (t : Fin cfg2.N) (i : S16384x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v3).slice (win2_2.rect t)).set ↔ _
  rw [View.set_slice_whole, Rect.mem_set_unit]
  exact Iff.rfl

/-- Row r lies in the block numbered r / 2048: the blocks tile the result. -/
theorem cover2 (i : S16384x128.Idx) : ∃ t : Fin cfg2.N, (cfg2.win 2).flush t = true ∧ i ∈ ((cfg2.win 2).blk t).view.set := by
  have hi0 : (i 0).val < 16384 := idx2_lt0 i
  have hi1 : (i 1).val < 128 := idx2_lt1 i
  obtain ⟨t, ht⟩ : ∃ t : Fin cfg2.N, t.val = (i 0).val / 2048 := ⟨⟨(i 0).val / 2048, by show _ < 8; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

/-- The array the region leaves: every row of the left array times the right array. -/
theorem arr2_eq (c : Dev nD) : (Reg.dat2 (F := Ideal) V c).arrAt 2 cfg2.N = rowsTimes (V c main_v2) (V c main_arg4) :=
  (Reg.dat2 (F := Ideal) V c).arrAt_eq_of_cover 2 _ (fun t _ => flushed2_eq V c t) (cover2)

/-! ## Region 3: a row-tiled product plus a bias row -/

/-- Every row of the left array times the right array, plus the bias row. -/
def rowsTimesPlus (a : S16384x128.Idx → Elt Ideal .f32) (b : S128x128.Idx → Elt Ideal .f32) (s : S1x128.Idx → Elt Ideal .f32) :
    S16384x128.Idx → Elt Ideal .f32 :=
  fun i => (∑ d : Fin 128, a (ix2 (⟨(i 0).val, idx2_lt0 i⟩ : Fin 16384) d) * b (ix2 d (⟨(i 1).val, idx2_lt1 i⟩ : Fin 128)))
    + s (ix2 (0 : Fin 1) (⟨(i 1).val, idx2_lt1 i⟩ : Fin 128))

/-- Entry (r, j) of it: row r of the left array against column j of the right array, plus entry j of the bias row. -/
theorem rowsTimesPlus_ix2 (a : S16384x128.Idx → Elt Ideal .f32) (b : S128x128.Idx → Elt Ideal .f32) (s : S1x128.Idx → Elt Ideal .f32)
    (r : Fin 16384) (j : Fin 128) :
    rowsTimesPlus a b s (ix2 r j) = (∑ d : Fin 128, a (ix2 r d) * b (ix2 d j)) + s (ix2 (0 : Fin 1) j) := rfl

/-- The printed index maps over the grid: point t takes the block of rows numbered t of the left array and of the
    result, and the one block of the right array and of the bias row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the rows-times-matrix-plus-row function of the arrays the region found. -/
theorem flushed3_eq (c : Dev nD) (t : Fin cfg3.N) :
    (Reg.dat3 (F := Ideal) V c).flushed 3 t = ((cfg3.win 3).blk t).view.read (Elt Ideal) (rowsTimesPlus (V c main_v2) (V c main_v4) (V c main_v5)) := by
  show (cfg3.win 3).cut (grid3.coords t) ((Reg.dat3 V c).after 3 t) = _
  rw [Reg.after3_3]
  unfold Reg.out3_3
  rw [View.canon_unit_zero hz]
  simp only [View.ld_unit_zero (S := S2048x128) hz, View.ld_unit_zero (S := S128x128) hz, View.ld_unit_zero (S := S1x128) hz]
  funext y
  obtain ⟨p, q, rfl⟩ : ∃ (p : Fin 2048) (q : Fin 128), y = ix2 p q := ⟨y 0, y 1, eq_ix2 y⟩
  show k3_pay1 (Reg.iblk3 V c 0 t) (Reg.iblk3 V c 1 t) (Reg.iblk3 V c 2 t) (ix2 p q)
    = rowsTimesPlus (V c main_v2) (V c main_v4) (V c main_v5) (((cfg3.win 3).blk t).view.emb (ix2 p q))
  refine (k3_pay1_apply _ _ _ p q).trans ?_
  unfold rowsTimesPlus
  obtain ⟨e0, e1, e2, e3, e4, e5, e6, e7⟩ := idx_facts3 t
  congr 1
  · refine Finset.sum_congr rfl fun d _ => ?_
    congr 1
    · show V c main_v2 (((cfg3.win 0).blk t).view.emb (ix2 p d)) = _
      refine congrArg (V c main_v2) (funext fun a => Fin.ext ?_)
      match a with
      | ⟨0, _⟩ => show win3_0.index t (0 : Fin 2) * 2048 + 1 * p.val = win3_3.index t (0 : Fin 2) * 2048 + 1 * p.val; omega
      | ⟨1, _⟩ => show win3_0.index t (1 : Fin 2) * 128 + 1 * d.val = d.val; omega
    · show V c main_v4 (((cfg3.win 1).blk t).view.emb (ix2 d q)) = _
      refine congrArg (V c main_v4) (funext fun a => Fin.ext ?_)
      match a with
      | ⟨0, _⟩ => show win3_1.index t (0 : Fin 2) * 128 + 1 * d.val = d.val; omega
      | ⟨1, _⟩ => show win3_1.index t (1 : Fin 2) * 128 + 1 * q.val = win3_3.index t (1 : Fin 2) * 128 + 1 * q.val; omega
  · show V c main_v5 (((cfg3.win 2).blk t).view.emb (ix2 (0 : Fin 1) q)) = _
    refine congrArg (V c main_v5) (funext fun a => Fin.ext ?_)
    match a with
    | ⟨0, _⟩ => show win3_2.index t (0 : Fin 2) * 1 + 1 * (0 : Fin 1).val = (0 : Fin 1).val; omega
    | ⟨1, _⟩ => show win3_2.index t (1 : Fin 2) * 128 + 1 * q.val = win3_3.index t (1 : Fin 2) * 128 + 1 * q.val; omega

/-- An index of the result is in point t's block iff each coordinate is in the block's range on its axis. -/
theorem mem_blk3 (t : Fin cfg3.N) (i : S16384x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v6).slice (win3_3.rect t)).set ↔ _
  rw [View.set_slice_whole, Rect.mem_set_unit]
  exact Iff.rfl

/-- Row r lies in the block numbered r / 2048: the blocks tile the result. -/
theorem cover3 (i : S16384x128.Idx) : ∃ t : Fin cfg3.N, (cfg3.win 3).flush t = true ∧ i ∈ ((cfg3.win 3).blk t).view.set := by
  have hi0 : (i 0).val < 16384 := idx2_lt0 i
  have hi1 : (i 1).val < 128 := idx2_lt1 i
  obtain ⟨t, ht⟩ : ∃ t : Fin cfg3.N, t.val = (i 0).val / 2048 := ⟨⟨(i 0).val / 2048, by show _ < 8; omega⟩, rfl⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 128 ≤ (i 1).val ∧ (i 1).val < win3_3.index t (1 : Fin 2) * 128 + 128; omega

/-- The array the region leaves: every row of the left array times the right array, plus the bias row. -/
theorem arr3_eq (c : Dev nD) : (Reg.dat3 (F := Ideal) V c).arrAt 3 cfg3.N = rowsTimesPlus (V c main_v2) (V c main_v4) (V c main_v5) :=
  (Reg.dat3 (F := Ideal) V c).arrAt_eq_of_cover 3 _ (fun t _ => flushed3_eq V c t) (cover3)

end Cert.KernelIdeal.Val

end
-- ==== Proof.Spec.lean ====
/-
  The specification. Two stacked graph-convolution layers with a linear residual, written as one function of the
  eight argument arrays, entry by entry, over the extended reals.

  With x : 16384 × 128 the node features, adj : 16384 × 16384 the adjacency weights, W2, W4, rw : 128 × 128 and
  b2, b4, rb : 128:
    hidden r d = (Σ_k adj r k · (Σ_e x k e · W2 e d)) + b2 d                      (the first layer)
    G r j      = ((Σ_k adj r k · (Σ_d hidden k d · W4 d j)) + b4 j)               (the second layer)
                   + ((Σ_d hidden r d · rw j d) + rb j)                            (the residual: hidden · rwᵀ + rb)
  The second half of the file holds the two regroupings of a sum of 16384 terms a blocked evaluation of the
  contraction over k goes through: the sum of the sixteen block sums of 1024 terms each is the whole sum, and an
  accumulator that starts from 0 and adds one block sum per step holds, after the last step, the sum of all of
  them. Both are laws of a commutative additive monoid: no finiteness of any entry is used.
-/
import Idealize.ShloMosaic.PureOps.Ideal.Laws
import Idealize.ShloMosaic.Lib.ValueIdx
import Mathlib.Data.EReal.Basic
import Mathlib.Algebra.BigOperators.Fin
import Mathlib.Logic.Equiv.Fin.Basic

noncomputable section

namespace Cert.Gcn

open Idealize.ShloMosaic Idealize.ShloMosaic.ValueIdx
open scoped BigOperators

/-- The first layer at row r, column j: adj · (x · W2) + b2. -/
def hidden (x : (⟨2, ![16384, 128]⟩ : Shape).Idx → EReal) (adj : (⟨2, ![16384, 16384]⟩ : Shape).Idx → EReal)
    (W2 : (⟨2, ![128, 128]⟩ : Shape).Idx → EReal) (b2 : (⟨1, ![128]⟩ : Shape).Idx → EReal)
    (r : Fin 16384) (j : Fin 128) : EReal :=
  (∑ k : Fin 16384, adj (ix2 r k) * (∑ d : Fin 128, x (ix2 k d) * W2 (ix2 d j))) + b2 (ix1 j)

/-- The result at row r, column j: (adj · (hidden · W4) + b4) + (hidden · rwᵀ + rb). -/
def G (x : (⟨2, ![16384, 128]⟩ : Shape).Idx → EReal) (adj : (⟨2, ![16384, 16384]⟩ : Shape).Idx → EReal)
    (W2 : (⟨2, ![128, 128]⟩ : Shape).Idx → EReal) (b2 : (⟨1, ![128]⟩ : Shape).Idx → EReal)
    (W4 : (⟨2, ![128, 128]⟩ : Shape).Idx → EReal) (b4 : (⟨1, ![128]⟩ : Shape).Idx → EReal)
    (rw : (⟨2, ![128, 128]⟩ : Shape).Idx → EReal) (rb : (⟨1, ![128]⟩ : Shape).Idx → EReal)
    (r : Fin 16384) (j : Fin 128) : EReal :=
  ((∑ k : Fin 16384, adj (ix2 r k) * (∑ d : Fin 128, hidden x adj W2 b2 k d * W4 (ix2 d j))) + b4 (ix1 j))
    + ((∑ d : Fin 128, hidden x adj W2 b2 r d * rw (ix2 j d)) + rb (ix1 j))

/-- The result as an array: G read at an index's two coordinates. -/
def Gfun (x : (⟨2, ![16384, 128]⟩ : Shape).Idx → EReal) (adj : (⟨2, ![16384, 16384]⟩ : Shape).Idx → EReal)
    (W2 : (⟨2, ![128, 128]⟩ : Shape).Idx → EReal) (b2 : (⟨1, ![128]⟩ : Shape).Idx → EReal)
    (W4 : (⟨2, ![128, 128]⟩ : Shape).Idx → EReal) (b4 : (⟨1, ![128]⟩ : Shape).Idx → EReal)
    (rw : (⟨2, ![128, 128]⟩ : Shape).Idx → EReal) (rb : (⟨1, ![128]⟩ : Shape).Idx → EReal) :
    (⟨2, ![16384, 128]⟩ : Shape).Idx → EReal :=
  fun i => G x adj W2 b2 W4 b4 rw rb ⟨(i 0).val, (i 0).isLt⟩ ⟨(i 1).val, (i 1).isLt⟩

/-- At the index with coordinates r and j the array is G r j. -/
theorem Gfun_ix2 (x : (⟨2, ![16384, 128]⟩ : Shape).Idx → EReal) (adj : (⟨2, ![16384, 16384]⟩ : Shape).Idx → EReal)
    (W2 : (⟨2, ![128, 128]⟩ : Shape).Idx → EReal) (b2 : (⟨1, ![128]⟩ : Shape).Idx → EReal)
    (W4 : (⟨2, ![128, 128]⟩ : Shape).Idx → EReal) (b4 : (⟨1, ![128]⟩ : Shape).Idx → EReal)
    (rw : (⟨2, ![128, 128]⟩ : Shape).Idx → EReal) (rb : (⟨1, ![128]⟩ : Shape).Idx → EReal)
    (r : Fin 16384) (j : Fin 128) :
    Gfun x adj W2 b2 W4 b4 rw rb (ix2 r j) = G x adj W2 b2 W4 b4 rw rb r j := rfl

/-! ## Regrouping a sum of 16384 terms into sixteen blocks of 1024 -/

section Blocks

variable {M : Type*} [AddCommMonoid M]

/-- Position kk of block kb is entry 1024 · kb + kk, below 16384. -/
theorem block_lt (kb : Fin 16) (kk : Fin 1024) : 1024 * kb.val + kk.val < 16384 := by
  have h1 := kb.isLt
  have h2 := kk.isLt
  omega

/-- The sum of the sixteen block sums is the whole sum: the pairs (block, position in the block) are in bijection with
    the 16384 entries through (kb, kk) ↦ 1024 · kb + kk, and a finite sum in a commutative monoid does not depend on the
    order of its terms. -/
theorem sum_blocks (f : Fin 16384 → M) :
    (∑ kb : Fin 16, ∑ kk : Fin 1024, f ⟨1024 * kb.val + kk.val, block_lt kb kk⟩) = ∑ k : Fin 16384, f k := by
  symm
  calc ∑ k : Fin 16384, f k
      = ∑ p : Fin 16 × Fin 1024, f (finProdFinEquiv p) :=
        (Equiv.sum_comp (finProdFinEquiv (m := 16) (n := 1024)) f).symm
    _ = ∑ kb : Fin 16, ∑ kk : Fin 1024, f (finProdFinEquiv (kb, kk)) := Fintype.sum_prod_type _
    _ = ∑ kb : Fin 16, ∑ kk : Fin 1024, f ⟨1024 * kb.val + kk.val, block_lt kb kk⟩ :=
        Finset.sum_congr rfl fun kb _ => Finset.sum_congr rfl fun kk _ => congrArg f (Fin.ext (by
          show kk.val + 1024 * kb.val = 1024 * kb.val + kk.val
          exact Nat.add_comm _ _))

/-- The same with the bound written as any proof (two proofs of one inequality are equal). -/
theorem sum_blocks' (f : Fin 16384 → M) (h : ∀ (kb : Fin 16) (kk : Fin 1024), 1024 * kb.val + kk.val < 16384) :
    (∑ kb : Fin 16, ∑ kk : Fin 1024, f ⟨1024 * kb.val + kk.val, h kb kk⟩) = ∑ k : Fin 16384, f k :=
  sum_blocks f

/-- A running total that starts as 0 + P 0 and adds P (n + 1) at step n + 1 holds, after step n, the sum of
    P 0, …, P n. The recursion is only asked below a bound N (the number of steps really taken). -/
theorem fold_range_lt (N : ℕ) (P a : ℕ → M) (h0 : a 0 = 0 + P 0)
    (hs : ∀ n, n + 1 < N → a (n + 1) = a n + P (n + 1)) (n : ℕ) (hn : n < N) :
    a n = ∑ k ∈ Finset.range (n + 1), P k := by
  induction n with
  | zero => rw [h0, zero_add, Finset.sum_range_one]
  | succ n ih => rw [hs n hn, ih (by omega), Finset.sum_range_succ _ (n + 1)]

/-- The same with the recursion at every step. -/
theorem fold_range (P a : ℕ → M) (h0 : a 0 = 0 + P 0) (hs : ∀ n, a (n + 1) = a n + P (n + 1)) (n : ℕ) :
    a n = ∑ k ∈ Finset.range (n + 1), P k :=
  fold_range_lt (n + 1) P a h0 (fun m _ => hs m) n (Nat.lt_succ_self n)

/-- A sum over the first sixteen naturals is the sum over the sixteen block numbers. -/
theorem range_blocks (P : ℕ → M) : ∑ k ∈ Finset.range 16, P k = ∑ kb : Fin 16, P kb.val :=
  Finset.sum_range P

/-- Sixteen steps: the running total after the last step is the sum over the sixteen blocks. -/
theorem fold_blocks (P a : ℕ → M) (h0 : a 0 = 0 + P 0) (hs : ∀ n, n + 1 < 16 → a (n + 1) = a n + P (n + 1)) :
    a 15 = ∑ kb : Fin 16, P kb.val :=
  (fold_range_lt 16 P a h0 hs 15 (by decide)).trans (range_blocks P)

/-- The same for a running total and block sums indexed by the block number itself. -/
theorem fold_blocks_fin (P a : Fin 16 → M) (h0 : a 0 = 0 + P 0)
    (hs : ∀ (n : ℕ) (h : n + 1 < 16), a ⟨n + 1, h⟩ = a ⟨n, Nat.lt_of_succ_lt h⟩ + P ⟨n + 1, h⟩) :
    a 15 = ∑ kb : Fin 16, P kb := by
  have key := fold_blocks (fun n => if h : n < 16 then P ⟨n, h⟩ else 0) (fun n => if h : n < 16 then a ⟨n, h⟩ else 0)
    (by
      show (if h : 0 < 16 then a ⟨0, h⟩ else 0) = 0 + (if h : 0 < 16 then P ⟨0, h⟩ else 0)
      rw [dif_pos (by decide), dif_pos (by decide)]; exact h0)
    (fun n h => by
      show (if h' : n + 1 < 16 then a ⟨n + 1, h'⟩ else 0)
        = (if h' : n < 16 then a ⟨n, h'⟩ else 0) + (if h' : n + 1 < 16 then P ⟨n + 1, h'⟩ else 0)
      rw [dif_pos h, dif_pos (Nat.lt_of_succ_lt h), dif_pos h]; exact hs n h)
  have e15 : (if h : 15 < 16 then a ⟨15, h⟩ else 0) = a 15 := by rw [dif_pos (by decide)]; rfl
  rw [← e15, key]
  exact Finset.sum_congr rfl fun kb _ => by
    show (if h : kb.val < 16 then P ⟨kb.val, h⟩ else 0) = P kb
    rw [dif_pos kb.isLt]

/-- Blocked evaluation of one contraction, in one statement: an accumulator that starts from 0 and at step kb adds the
    sum over block kb's 1024 entries holds, after the sixteenth step, the sum over all 16384 entries. -/
theorem fold_sum_blocks (f : Fin 16384 → M) (a : ℕ → M)
    (h0 : a 0 = 0 + ∑ kk : Fin 1024, (if h : 1024 * 0 + kk.val < 16384 then f ⟨1024 * 0 + kk.val, h⟩ else 0))
    (hs : ∀ n, n + 1 < 16 → a (n + 1)
      = a n + ∑ kk : Fin 1024, (if h : 1024 * (n + 1) + kk.val < 16384 then f ⟨1024 * (n + 1) + kk.val, h⟩ else 0)) :
    a 15 = ∑ k : Fin 16384, f k := by
  rw [fold_blocks (fun n => ∑ kk : Fin 1024, (if h : 1024 * n + kk.val < 16384 then f ⟨1024 * n + kk.val, h⟩ else 0)) a h0 hs,
    ← sum_blocks f]
  exact Finset.sum_congr rfl fun kb _ => Finset.sum_congr rfl fun kk _ => by
    show (if h : 1024 * kb.val + kk.val < 16384 then f ⟨1024 * kb.val + kk.val, h⟩ else 0) = _
    rw [dif_pos (block_lt kb kk)]

end Blocks

end Cert.Gcn

end
-- ==== Proof.AccSum.lean ====
/-
  A running sum that restarts at every sixteenth step. If a₀ = 0 + P 0, aₙ = 0 + P n when 16 ∣ n, and
  aₙ = aₙ₋₁ + P n otherwise, then aₙ is the sum of P over the steps since the last restart:
  aₙ = P (n − n mod 16) + … + P n. Only the laws of a commutative additive monoid are used.
-/
import Mathlib.Algebra.BigOperators.Fin
import Mathlib.Algebra.BigOperators.Intervals

open scoped BigOperators

namespace Cert.Gcn

theorem running_sum16 {β : Type*} [AddCommMonoid β] (N : ℕ) (a : (n : ℕ) → n < N → β) (P : ℕ → β)
    (hreset : ∀ n (h : n < N), n % 16 = 0 → a n h = 0 + P n)
    (hstep : ∀ n (h : n < N) (_ : ¬ n % 16 = 0), a n h = a (n - 1) (by omega) + P n) :
    ∀ n (h : n < N), a n h = ∑ k ∈ Finset.range (n % 16 + 1), P (n - n % 16 + k) := by
  intro n
  induction n with
  | zero =>
    intro h
    rw [hreset 0 h rfl]
    simp
  | succ n ih =>
    intro h
    by_cases hn : (n + 1) % 16 = 0
    · rw [hreset _ h hn, hn]
      simp
    · have h1 : (n + 1) % 16 = n % 16 + 1 := by omega
      have h2 : n + 1 - (n % 16 + 1) = n - n % 16 := by omega
      have h3 : n - n % 16 + (n % 16 + 1) = n + 1 := by omega
      have e : a (n + 1 - 1) (by omega) = a n (by omega) := rfl
      rw [hstep _ h hn, e, ih (by omega), h1, Finset.sum_range_succ _ (n % 16 + 1), h2, h3]

/-- At the last step before a restart the running sum is the sum over the sixteen steps of its stretch. -/
theorem running_sum16_last {β : Type*} [AddCommMonoid β] (N : ℕ) (a : (n : ℕ) → n < N → β) (P : ℕ → β)
    (hreset : ∀ n (h : n < N), n % 16 = 0 → a n h = 0 + P n)
    (hstep : ∀ n (h : n < N) (_ : ¬ n % 16 = 0), a n h = a (n - 1) (by omega) + P n)
    (n : ℕ) (h : n < N) (hl : n % 16 = 15) : a n h = ∑ kb : Fin 16, P (n - 15 + kb.val) := by
  rw [running_sum16 N a P hreset hstep n h, hl, Finset.sum_range]

end Cert.Gcn
-- ==== Proof.KI.ValGcn1.lean ====
/-
  The second pallas_call's result array, entry by entry, with floats read as extended reals.

  The grid has 8 × 16 points; point t = 16·i + k handles row tile i (rows 2048·i … 2048·i + 2047) and contraction tile k
  (positions 1024·k … 1024·k + 1023). An accumulator restarts from zero at k = 0 and at every k adds the product of the
  left array's block (i, k) with the right array's block (k, 0); at k = 15 the result's block i is written as the
  accumulator plus the bias row. So entry (p, q) of the accumulator at k = 15 is a running sum of sixteen tile sums, which
  regroup into the sum over all 16384 contraction positions, and entry (r, j) of the result array is
  Σ_k left r k · right k j + bias j. The running sum and the regrouping are laws of a commutative additive monoid: no
  entry is asked to be finite.
-/
import proofs.«137723_j44461501448910_1_alg».proof.Proof.KI.Reg1
import proofs.«137723_j44461501448910_1_alg».proof.Proof.KI.Val
import proofs.«137723_j44461501448910_1_alg».proof.Proof.Spec
import proofs.«137723_j44461501448910_1_alg».proof.Proof.AccSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

-- the TensorCore's buffer contents when the region is entered
variable (V : (c : Dev nD) → (b : Ref sig .tc) → Buf (Elt Ideal) ((c : Thread nD τ).loc b))

/-- The region's input arrays as it finds them, as matrices of extended reals: the left array (16384 × 16384), the right
    array (16384 × 128) and the bias row (1 × 128). -/
abbrev lhs1 (c : Dev nD) : (⟨2, ![16384, 16384]⟩ : Shape).Idx → EReal := V c main_arg1
abbrev rhs1 (c : Dev nD) : (⟨2, ![16384, 128]⟩ : Shape).Idx → EReal := V c main_v0
abbrev row1 (c : Dev nD) : (⟨2, ![1, 128]⟩ : Shape).Idx → EReal := V c main_v1

/-- The two blocks a step multiplies, as matrices of extended reals. -/
abbrev blkL1 (c : Dev nD) (t : Fin cfg1.N) : (⟨2, ![2048, 1024]⟩ : Shape).Idx → EReal := Reg.iblk1 V c 0 t
abbrev blkR1 (c : Dev nD) (t : Fin cfg1.N) : (⟨2, ![1024, 128]⟩ : Shape).Idx → EReal := Reg.iblk1 V c 1 t

/-! ## Where the blocks lie -/

/-- The block index maps over the grid: point t = 16·i + k is row tile i, contraction tile k. The left array's block is
    (i, k), the right array's (k, 0), the bias row's (0, 0), the result's (i, 0). -/
theorem idx1 : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

theorem lt128_1 (t : Fin cfg1.N) : t.val < 128 := lt_of_lt_of_eq t.isLt (show cfg1.N = 128 from N_1)

/-- Row p of row tile n / 16 is a row of the array. -/
theorem row_lt1 (n : ℕ) (hn : n < 128) (p : Fin 2048) : 2048 * (n / 16) + p.val < 16384 := by
  have := p.isLt; omega
/-- Position kk of contraction tile n mod 16 is below 16384. -/
theorem col_lt1 (n : ℕ) (kk : Fin 1024) : 1024 * (n % 16) + kk.val < 16384 := by
  have := kk.isLt; omega

/-- The left array's block at point t, entry (p, kk): row 2048·(t / 16) + p, column 1024·(t mod 16) + kk of the array. -/
theorem iblk1_0_apply (c : Dev nD) (t : Fin cfg1.N) (p : Fin 2048) (kk : Fin 1024) :
    Reg.iblk1 V c 0 t (ix2 p kk) = lhs1 V c (ix2 ⟨2048 * (t.val / 16) + p.val, row_lt1 t.val (lt128_1 t) p⟩ ⟨1024 * (t.val % 16) + kk.val, col_lt1 t.val kk⟩) := by
  obtain ⟨e0, e1, -⟩ := idx1 t
  show V c main_arg1 (((cfg1.win 0).blk t).view.emb (ix2 p kk)) = _
  refine congrArg _ ?_
  funext a; apply Fin.ext
  match a with
  | ⟨0, _⟩ => show win1_0.index t (0 : Fin 2) * 2048 + 1 * p.val = 2048 * (t.val / 16) + p.val; omega
  | ⟨1, _⟩ => show win1_0.index t (1 : Fin 2) * 1024 + 1 * kk.val = 1024 * (t.val % 16) + kk.val; omega

/-- The right array's block at point t, entry (kk, q): row 1024·(t mod 16) + kk, column q of the array. -/
theorem iblk1_1_apply (c : Dev nD) (t : Fin cfg1.N) (kk : Fin 1024) (q : Fin 128) :
    Reg.iblk1 V c 1 t (ix2 kk q) = rhs1 V c (ix2 ⟨1024 * (t.val % 16) + kk.val, col_lt1 t.val kk⟩ q) := by
  obtain ⟨-, -, e0, e1, -⟩ := idx1 t
  show V c main_v0 (((cfg1.win 1).blk t).view.emb (ix2 kk q)) = _
  refine congrArg _ ?_
  funext a; apply Fin.ext
  match a with
  | ⟨0, _⟩ => show win1_1.index t (0 : Fin 2) * 1024 + 1 * kk.val = 1024 * (t.val % 16) + kk.val; omega
  | ⟨1, _⟩ => show win1_1.index t (1 : Fin 2) * 128 + 1 * q.val = q.val; omega

/-- The bias row's block is the whole row at every point. -/
theorem iblk1_2_apply (c : Dev nD) (t : Fin cfg1.N) (q : Fin 128) :
    Reg.iblk1 V c 2 t (ix2 (0 : Fin 1) q) = row1 V c (ix2 (0 : Fin 1) q) := by
  obtain ⟨-, -, -, -, e0, e1, -⟩ := idx1 t
  show V c main_v1 (((cfg1.win 2).blk t).view.emb (ix2 (0 : Fin 1) q)) = _
  refine congrArg _ ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- The result's block at point t, entry (p, q): row 2048·(t / 16) + p, column q of the array. -/
theorem emb1_3 (t : Fin cfg1.N) (p : Fin 2048) (q : Fin 128) :
    ((cfg1.win 3).blk t).view.emb (ix2 p q) = ix2 ⟨2048 * (t.val / 16) + p.val, row_lt1 t.val (lt128_1 t) p⟩ q := by
  obtain ⟨-, -, -, -, -, -, e0, e1⟩ := idx1 t
  funext a; apply Fin.ext
  match a with
  | ⟨0, _⟩ => show win1_3.index t (0 : Fin 2) * 2048 + 1 * p.val = 2048 * (t.val / 16) + p.val; omega
  | ⟨1, _⟩ => show win1_3.index t (1 : Fin 2) * 128 + 1 * q.val = q.val; omega

/-! ## The accumulator is a running sum over the contraction tiles -/

/-- The products of row 2048·(n / 16) + p of the left array with column q of the right array, summed over contraction
    tile n mod 16: what step n adds to the accumulator's entry (p, q). -/
def blockSum1 (c : Dev nD) (p : Fin 2048) (q : Fin 128) (n : ℕ) : EReal :=
  if hn : n < 128 then
    ∑ kk : Fin 1024, lhs1 V c (ix2 ⟨2048 * (n / 16) + p.val, row_lt1 n hn p⟩ ⟨1024 * (n % 16) + kk.val, col_lt1 n kk⟩)
      * rhs1 V c (ix2 ⟨1024 * (n % 16) + kk.val, col_lt1 n kk⟩ q)
  else 0

/-- The same with the row tile and the contraction tile named. -/
theorem blockSum1_eq (c : Dev nD) (p : Fin 2048) (q : Fin 128) (n i k : ℕ) (hn : n < 128) (hi : n / 16 = i) (hk : n % 16 = k)
    (hr : 2048 * i + p.val < 16384) (hc : ∀ kk : Fin 1024, 1024 * k + kk.val < 16384) :
    blockSum1 V c p q n = ∑ kk : Fin 1024, lhs1 V c (ix2 ⟨2048 * i + p.val, hr⟩ ⟨1024 * k + kk.val, hc kk⟩)
      * rhs1 V c (ix2 ⟨1024 * k + kk.val, hc kk⟩ q) := by
  subst hi; subst hk
  unfold blockSum1
  rw [dif_pos hn]

/-- What one step adds, read off the two blocks. -/
theorem step_sum1 (c : Dev nD) (t : Fin cfg1.N) (p : Fin 2048) (q : Fin 128) :
    (∑ kk : Fin 1024, blkL1 V c t (ix2 p kk) * blkR1 V c t (ix2 kk q)) = blockSum1 V c p q t.val := by
  unfold blockSum1
  rw [dif_pos (lt128_1 t)]
  exact Finset.sum_congr rfl fun kk _ => congrArg₂ (· * ·) (iblk1_0_apply V c t p kk) (iblk1_1_apply V c t kk q)

/-- At the last contraction step of a row tile the accumulator's entry (p, q) is the whole contraction of row
    2048·(t / 16) + p of the left array with column q of the right array: it restarts from zero at the tile's first step,
    adds one tile's products per step, and the sixteen tiles of 1024 make up the 16384 terms. -/
theorem acc1_last (c : Dev nD) (t : Fin cfg1.N) (h : t.val % 16 = 15) (p : Fin 2048) (q : Fin 128) :
    Reg.acc1 V c t.val t.isLt (ix2 p q)
      = ∑ k : Fin 16384, lhs1 V c (ix2 ⟨2048 * (t.val / 16) + p.val, row_lt1 t.val (lt128_1 t) p⟩ k) * rhs1 V c (ix2 k q) := by
  have hreset : ∀ n (hn : n < cfg1.N), n % 16 = 0 → Reg.acc1 V c n hn (ix2 p q) = 0 + blockSum1 V c p q n := fun n hn h0 => by
    refine (congrFun (Reg.acc1_reset V c ⟨n, hn⟩ h0) (ix2 p q)).trans ?_
    rw [k1_pay2_apply, k1_pay1_apply]
    exact congrArg (0 + ·) (step_sum1 V c ⟨n, hn⟩ p q)
  have hstep : ∀ n (hn : n < cfg1.N) (_ : ¬ n % 16 = 0),
      Reg.acc1 V c n hn (ix2 p q) = Reg.acc1 V c (n - 1) (Nat.lt_of_le_of_lt (Nat.sub_le _ _) hn) (ix2 p q) + blockSum1 V c p q n := fun n hn h0 => by
    refine (congrFun (Reg.acc1_step V c ⟨n, hn⟩ h0) (ix2 p q)).trans ?_
    rw [k1_pay2_apply]
    exact congrArg (_ + ·) (step_sum1 V c ⟨n, hn⟩ p q)
  have key := Cert.Gcn.running_sum16_last cfg1.N (fun n hn => Reg.acc1 V c n hn (ix2 p q)) (blockSum1 V c p q) hreset hstep t.val t.isLt h
  refine key.trans ?_
  have ht := lt128_1 t
  rw [← Cert.Gcn.sum_blocks' (fun k => lhs1 V c (ix2 ⟨2048 * (t.val / 16) + p.val, row_lt1 t.val (lt128_1 t) p⟩ k) * rhs1 V c (ix2 k q))
    (fun kb kk => Cert.Gcn.block_lt kb kk)]
  refine Finset.sum_congr rfl fun kb _ => ?_
  have hkb := kb.isLt
  exact blockSum1_eq V c p q (t.val - 15 + kb.val) (t.val / 16) kb.val (by omega) (by omega) (by omega) _ _

/-! ## The result array -/

/-- The region's result as one array: entry (r, j) is the contraction of row r of the left array with column j of the
    right array, plus entry j of the bias row. -/
def G1 (c : Dev nD) : S16384x128.Idx → EReal := fun i =>
  (∑ k : Fin 16384, lhs1 V c (ix2 ⟨(i 0).val, (i 0).isLt⟩ k) * rhs1 V c (ix2 k ⟨(i 1).val, (i 1).isLt⟩))
    + row1 V c (ix2 (0 : Fin 1) ⟨(i 1).val, (i 1).isLt⟩)

theorem G1_ix2 (c : Dev nD) (r : Fin 16384) (j : Fin 128) :
    G1 V c (ix2 r j) = (∑ k : Fin 16384, lhs1 V c (ix2 r k) * rhs1 V c (ix2 k j)) + row1 V c (ix2 (0 : Fin 1) j) := rfl

/-- What a point that writes back writes is its block of that array: such a point is the last contraction step of its
    row tile, where the result's buffer holds the accumulator plus the bias row. -/
theorem flushed1_eq (c : Dev nD) (t : Fin cfg1.N) (hf : (cfg1.win 3).flush t = true) :
    (Reg.dat1 V c).flushed 3 t = ((cfg1.win 3).blk t).view.read (Elt Ideal) (G1 V c) := by
  have h : t.val % 16 = 15 := (flush1_3 t).mp hf
  show (cfg1.win 3).cut (grid1.coords t) ((Reg.dat1 V c).after 3 t) = _
  rw [Reg.after1_3_last V c t h]
  funext y
  obtain ⟨p, q, rfl⟩ : ∃ (p : Fin 2048) (q : Fin 128), y = ix2 p q := ⟨y 0, y 1, eq_ix2 (n0 := 2048) (n1 := 128) y⟩
  show k1_pay3 (Reg.acc1 V c t.val t.isLt) (Reg.iblk1 V c 2 t) (ix2 p q) = G1 V c (((cfg1.win 3).blk t).view.emb (ix2 p q))
  rw [k1_pay3_apply, acc1_last V c t h, iblk1_2_apply, emb1_3, G1_ix2]

/-- An index of the array is in point t's block iff each coordinate is in the block's range on its axis. -/
theorem mem_blk1 (t : Fin cfg1.N) (i : S16384x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v2).slice (win1_3.rect t)).set ↔ _
  rw [View.set_slice_whole, Rect.mem_set_unit]
  exact Iff.rfl

/-- Every index lies in the block of a point that writes back: row r is in row tile r / 2048, whose last contraction
    step is point 16·(r / 2048) + 15. -/
theorem cover1 (i : S16384x128.Idx) : ∃ t : Fin cfg1.N, (cfg1.win 3).flush t = true ∧ i ∈ ((cfg1.win 3).blk t).view.set := by
  have hi0 : (i 0).val < 16384 := (i 0).isLt
  have hi1 : (i 1).val < 128 := (i 1).isLt
  obtain ⟨t, ht⟩ : ∃ t : Fin cfg1.N, t.val = 16 * ((i 0).val / 2048) + 15 :=
    ⟨⟨16 * ((i 0).val / 2048) + 15, lt_of_lt_of_eq (by omega : 16 * ((i 0).val / 2048) + 15 < 128) N_1.symm⟩, rfl⟩
  obtain ⟨-, -, -, -, -, -, e0, e1⟩ := idx1 t
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

/-- The region's result array after the run, entry by entry. -/
theorem arr1_out (c : Dev nD) (r : Fin 16384) (j : Fin 128) :
    (Reg.dat1 (F := Ideal) V c).arrAt 3 cfg1.N (ix2 r j)
      = (∑ k : Fin 16384, lhs1 V c (ix2 r k) * rhs1 V c (ix2 k j)) + row1 V c (ix2 (0 : Fin 1) j) := by
  rw [(Reg.dat1 V c).arrAt_eq_of_cover 3 (G1 V c) (fun t hf => flushed1_eq V c t hf) cover1]
  rfl

/-- The same over any names for the three arrays. -/
theorem arr1_out_of (c : Dev nD) (adj : (⟨2, ![16384, 16384]⟩ : Shape).Idx → EReal) (s : (⟨2, ![16384, 128]⟩ : Shape).Idx → EReal)
    (b : (⟨2, ![1, 128]⟩ : Shape).Idx → EReal) (hadj : V c main_arg1 = adj) (hs : V c main_v0 = s) (hb : V c main_v1 = b)
    (r : Fin 16384) (j : Fin 128) :
    (Reg.dat1 (F := Ideal) V c).arrAt 3 cfg1.N (ix2 r j) = (∑ k : Fin 16384, adj (ix2 r k) * s (ix2 k j)) + b (ix2 (0 : Fin 1) j) := by
  subst hadj; subst hs; subst hb
  exact arr1_out V c r j

end Cert.KernelIdeal.Val

end
-- ==== Proof.KI.ValGcn4.lean ====
/-
  The last pallas_call's result array, entry by entry, with floats read as extended reals.

  The grid has 8 × 16 points; point t = 16·i + k handles row tile i (rows 2048·i … 2048·i + 2047) and contraction tile k
  (positions 1024·k … 1024·k + 1023). An accumulator restarts from zero at k = 0 and at every k adds the product of the
  left array's block (i, k) with the right array's block (k, 0); at k = 15 the result's block i is written as the
  accumulator plus the bias row plus the residual's block i. So entry (p, q) of the accumulator at k = 15 is a running
  sum of sixteen tile sums, which regroup into the sum over all 16384 contraction positions, and entry (r, j) of the
  result array is (Σ_k left r k · right k j + bias j) + residual r j. The running sum and the regrouping are laws of a
  commutative additive monoid: no entry is asked to be finite.
-/
import proofs.«137723_j44461501448910_1_alg».proof.Proof.KI.Reg4
import proofs.«137723_j44461501448910_1_alg».proof.Proof.KI.Val
import proofs.«137723_j44461501448910_1_alg».proof.Proof.Spec
import proofs.«137723_j44461501448910_1_alg».proof.Proof.AccSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

-- the TensorCore's buffer contents when the region is entered
variable (V : (c : Dev nD) → (b : Ref sig .tc) → Buf (Elt Ideal) ((c : Thread nD τ).loc b))

/-- The region's input arrays as it finds them, as matrices of extended reals: the left array (16384 × 16384), the right
    array (16384 × 128), the bias row (1 × 128) and the residual (16384 × 128). -/
abbrev lhs4 (c : Dev nD) : (⟨2, ![16384, 16384]⟩ : Shape).Idx → EReal := V c main_arg1
abbrev rhs4 (c : Dev nD) : (⟨2, ![16384, 128]⟩ : Shape).Idx → EReal := V c main_v3
abbrev row4 (c : Dev nD) : (⟨2, ![1, 128]⟩ : Shape).Idx → EReal := V c main_v7
abbrev res4 (c : Dev nD) : (⟨2, ![16384, 128]⟩ : Shape).Idx → EReal := V c main_v6

/-- The two blocks a step multiplies, as matrices of extended reals. -/
abbrev blkL4 (c : Dev nD) (t : Fin cfg4.N) : (⟨2, ![2048, 1024]⟩ : Shape).Idx → EReal := Reg.iblk4 V c 0 t
abbrev blkR4 (c : Dev nD) (t : Fin cfg4.N) : (⟨2, ![1024, 128]⟩ : Shape).Idx → EReal := Reg.iblk4 V c 1 t

/-! ## Where the blocks lie -/

/-- The block index maps over the grid: point t = 16·i + k is row tile i, contraction tile k. The left array's block is
    (i, k), the right array's (k, 0), the bias row's (0, 0), the residual's and the result's (i, 0). -/
theorem idx4 : ∀ t : Fin cfg4.N, win4_0.index t (0 : Fin 2) = t.val / 16 ∧ win4_0.index t (1 : Fin 2) = t.val % 16
    ∧ win4_1.index t (0 : Fin 2) = t.val % 16 ∧ win4_1.index t (1 : Fin 2) = 0
    ∧ win4_2.index t (0 : Fin 2) = 0 ∧ win4_2.index t (1 : Fin 2) = 0
    ∧ win4_3.index t (0 : Fin 2) = t.val / 16 ∧ win4_3.index t (1 : Fin 2) = 0
    ∧ win4_4.index t (0 : Fin 2) = t.val / 16 ∧ win4_4.index t (1 : Fin 2) = 0 :=
  (by decide +kernel : ∀ t : Fin grid4.N, _)

theorem lt128_4 (t : Fin cfg4.N) : t.val < 128 := lt_of_lt_of_eq t.isLt (show cfg4.N = 128 from N_4)

/-- Row p of row tile n / 16 is a row of the array. -/
theorem row_lt4 (n : ℕ) (hn : n < 128) (p : Fin 2048) : 2048 * (n / 16) + p.val < 16384 := by
  have := p.isLt; omega
/-- Position kk of contraction tile n mod 16 is below 16384. -/
theorem col_lt4 (n : ℕ) (kk : Fin 1024) : 1024 * (n % 16) + kk.val < 16384 := by
  have := kk.isLt; omega

/-- The left array's block at point t, entry (p, kk): row 2048·(t / 16) + p, column 1024·(t mod 16) + kk of the array. -/
theorem iblk4_0_apply (c : Dev nD) (t : Fin cfg4.N) (p : Fin 2048) (kk : Fin 1024) :
    Reg.iblk4 V c 0 t (ix2 p kk) = lhs4 V c (ix2 ⟨2048 * (t.val / 16) + p.val, row_lt4 t.val (lt128_4 t) p⟩ ⟨1024 * (t.val % 16) + kk.val, col_lt4 t.val kk⟩) := by
  obtain ⟨e0, e1, -⟩ := idx4 t
  show V c main_arg1 (((cfg4.win 0).blk t).view.emb (ix2 p kk)) = _
  refine congrArg _ ?_
  funext a; apply Fin.ext
  match a with
  | ⟨0, _⟩ => show win4_0.index t (0 : Fin 2) * 2048 + 1 * p.val = 2048 * (t.val / 16) + p.val; omega
  | ⟨1, _⟩ => show win4_0.index t (1 : Fin 2) * 1024 + 1 * kk.val = 1024 * (t.val % 16) + kk.val; omega

/-- The right array's block at point t, entry (kk, q): row 1024·(t mod 16) + kk, column q of the array. -/
theorem iblk4_1_apply (c : Dev nD) (t : Fin cfg4.N) (kk : Fin 1024) (q : Fin 128) :
    Reg.iblk4 V c 1 t (ix2 kk q) = rhs4 V c (ix2 ⟨1024 * (t.val % 16) + kk.val, col_lt4 t.val kk⟩ q) := by
  obtain ⟨-, -, e0, e1, -⟩ := idx4 t
  show V c main_v3 (((cfg4.win 1).blk t).view.emb (ix2 kk q)) = _
  refine congrArg _ ?_
  funext a; apply Fin.ext
  match a with
  | ⟨0, _⟩ => show win4_1.index t (0 : Fin 2) * 1024 + 1 * kk.val = 1024 * (t.val % 16) + kk.val; omega
  | ⟨1, _⟩ => show win4_1.index t (1 : Fin 2) * 128 + 1 * q.val = q.val; omega

/-- The bias row's block is the whole row at every point. -/
theorem iblk4_2_apply (c : Dev nD) (t : Fin cfg4.N) (q : Fin 128) :
    Reg.iblk4 V c 2 t (ix2 (0 : Fin 1) q) = row4 V c (ix2 (0 : Fin 1) q) := by
  obtain ⟨-, -, -, -, e0, e1, -⟩ := idx4 t
  show V c main_v7 (((cfg4.win 2).blk t).view.emb (ix2 (0 : Fin 1) q)) = _
  refine congrArg _ ?_
  funext a; apply Fin.ext
  match a with
  | ⟨0, _⟩ => show win4_2.index t (0 : Fin 2) * 1 + 1 * (0 : Fin 1).val = (0 : Fin 1).val; omega
  | ⟨1, _⟩ => show win4_2.index t (1 : Fin 2) * 128 + 1 * q.val = q.val; omega

/-- The residual's block at point t, entry (p, q): row 2048·(t / 16) + p, column q of the array. -/
theorem iblk4_3_apply (c : Dev nD) (t : Fin cfg4.N) (p : Fin 2048) (q : Fin 128) :
    Reg.iblk4 V c 3 t (ix2 p q) = res4 V c (ix2 ⟨2048 * (t.val / 16) + p.val, row_lt4 t.val (lt128_4 t) p⟩ q) := by
  obtain ⟨-, -, -, -, -, -, e0, e1, -⟩ := idx4 t
  show V c main_v6 (((cfg4.win 3).blk t).view.emb (ix2 p q)) = _
  refine congrArg _ ?_
  funext a; apply Fin.ext
  match a with
  | ⟨0, _⟩ => show win4_3.index t (0 : Fin 2) * 2048 + 1 * p.val = 2048 * (t.val / 16) + p.val; omega
  | ⟨1, _⟩ => show win4_3.index t (1 : Fin 2) * 128 + 1 * q.val = q.val; omega

/-- The result's block at point t, entry (p, q): row 2048·(t / 16) + p, column q of the array. -/
theorem emb4_4 (t : Fin cfg4.N) (p : Fin 2048) (q : Fin 128) :
    ((cfg4.win 4).blk t).view.emb (ix2 p q) = ix2 ⟨2048 * (t.val / 16) + p.val, row_lt4 t.val (lt128_4 t) p⟩ q := by
  obtain ⟨-, -, -, -, -, -, -, -, e0, e1⟩ := idx4 t
  funext a; apply Fin.ext
  match a with
  | ⟨0, _⟩ => show win4_4.index t (0 : Fin 2) * 2048 + 1 * p.val = 2048 * (t.val / 16) + p.val; omega
  | ⟨1, _⟩ => show win4_4.index t (1 : Fin 2) * 128 + 1 * q.val = q.val; omega

/-! ## The accumulator is a running sum over the contraction tiles -/

/-- The products of row 2048·(n / 16) + p of the left array with column q of the right array, summed over contraction
    tile n mod 16: what step n adds to the accumulator's entry (p, q). -/
def blockSum4 (c : Dev nD) (p : Fin 2048) (q : Fin 128) (n : ℕ) : EReal :=
  if hn : n < 128 then
    ∑ kk : Fin 1024, lhs4 V c (ix2 ⟨2048 * (n / 16) + p.val, row_lt4 n hn p⟩ ⟨1024 * (n % 16) + kk.val, col_lt4 n kk⟩)
      * rhs4 V c (ix2 ⟨1024 * (n % 16) + kk.val, col_lt4 n kk⟩ q)
  else 0

/-- The same with the row tile and the contraction tile named. -/
theorem blockSum4_eq (c : Dev nD) (p : Fin 2048) (q : Fin 128) (n i k : ℕ) (hn : n < 128) (hi : n / 16 = i) (hk : n % 16 = k)
    (hr : 2048 * i + p.val < 16384) (hc : ∀ kk : Fin 1024, 1024 * k + kk.val < 16384) :
    blockSum4 V c p q n = ∑ kk : Fin 1024, lhs4 V c (ix2 ⟨2048 * i + p.val, hr⟩ ⟨1024 * k + kk.val, hc kk⟩)
      * rhs4 V c (ix2 ⟨1024 * k + kk.val, hc kk⟩ q) := by
  subst hi; subst hk
  unfold blockSum4
  rw [dif_pos hn]

/-- What one step adds, read off the two blocks. -/
theorem step_sum4 (c : Dev nD) (t : Fin cfg4.N) (p : Fin 2048) (q : Fin 128) :
    (∑ kk : Fin 1024, blkL4 V c t (ix2 p kk) * blkR4 V c t (ix2 kk q)) = blockSum4 V c p q t.val := by
  unfold blockSum4
  rw [dif_pos (lt128_4 t)]
  exact Finset.sum_congr rfl fun kk _ => congrArg₂ (· * ·) (iblk4_0_apply V c t p kk) (iblk4_1_apply V c t kk q)

/-- At the last contraction step of a row tile the accumulator's entry (p, q) is the whole contraction of row
    2048·(t / 16) + p of the left array with column q of the right array: it restarts from zero at the tile's first step,
    adds one tile's products per step, and the sixteen tiles of 1024 make up the 16384 terms. -/
theorem acc4_last (c : Dev nD) (t : Fin cfg4.N) (h : t.val % 16 = 15) (p : Fin 2048) (q : Fin 128) :
    Reg.acc4 V c t.val t.isLt (ix2 p q)
      = ∑ k : Fin 16384, lhs4 V c (ix2 ⟨2048 * (t.val / 16) + p.val, row_lt4 t.val (lt128_4 t) p⟩ k) * rhs4 V c (ix2 k q) := by
  have hreset : ∀ n (hn : n < cfg4.N), n % 16 = 0 → Reg.acc4 V c n hn (ix2 p q) = 0 + blockSum4 V c p q n := fun n hn h0 => by
    refine (congrFun (Reg.acc4_reset V c ⟨n, hn⟩ h0) (ix2 p q)).trans ?_
    rw [k4_pay2_apply, k4_pay1_apply]
    exact congrArg (0 + ·) (step_sum4 V c ⟨n, hn⟩ p q)
  have hstep : ∀ n (hn : n < cfg4.N) (_ : ¬ n % 16 = 0),
      Reg.acc4 V c n hn (ix2 p q) = Reg.acc4 V c (n - 1) (Nat.lt_of_le_of_lt (Nat.sub_le _ _) hn) (ix2 p q) + blockSum4 V c p q n := fun n hn h0 => by
    refine (congrFun (Reg.acc4_step V c ⟨n, hn⟩ h0) (ix2 p q)).trans ?_
    rw [k4_pay2_apply]
    exact congrArg (_ + ·) (step_sum4 V c ⟨n, hn⟩ p q)
  have key := Cert.Gcn.running_sum16_last cfg4.N (fun n hn => Reg.acc4 V c n hn (ix2 p q)) (blockSum4 V c p q) hreset hstep t.val t.isLt h
  refine key.trans ?_
  have ht := lt128_4 t
  rw [← Cert.Gcn.sum_blocks' (fun k => lhs4 V c (ix2 ⟨2048 * (t.val / 16) + p.val, row_lt4 t.val (lt128_4 t) p⟩ k) * rhs4 V c (ix2 k q))
    (fun kb kk => Cert.Gcn.block_lt kb kk)]
  refine Finset.sum_congr rfl fun kb _ => ?_
  have hkb := kb.isLt
  exact blockSum4_eq V c p q (t.val - 15 + kb.val) (t.val / 16) kb.val (by omega) (by omega) (by omega) _ _

/-! ## The result array -/

/-- The region's result as one array: entry (r, j) is the contraction of row r of the left array with column j of the
    right array, plus entry j of the bias row, plus entry (r, j) of the residual. -/
def G4 (c : Dev nD) : S16384x128.Idx → EReal := fun i =>
  ((∑ k : Fin 16384, lhs4 V c (ix2 ⟨(i 0).val, (i 0).isLt⟩ k) * rhs4 V c (ix2 k ⟨(i 1).val, (i 1).isLt⟩))
    + row4 V c (ix2 (0 : Fin 1) ⟨(i 1).val, (i 1).isLt⟩)) + res4 V c (ix2 ⟨(i 0).val, (i 0).isLt⟩ ⟨(i 1).val, (i 1).isLt⟩)

theorem G4_ix2 (c : Dev nD) (r : Fin 16384) (j : Fin 128) :
    G4 V c (ix2 r j) = ((∑ k : Fin 16384, lhs4 V c (ix2 r k) * rhs4 V c (ix2 k j)) + row4 V c (ix2 (0 : Fin 1) j)) + res4 V c (ix2 r j) := rfl

/-- What a point that writes back writes is its block of that array: such a point is the last contraction step of its
    row tile, where the result's buffer holds the accumulator plus the bias row plus the residual's block. -/
theorem flushed4_eq (c : Dev nD) (t : Fin cfg4.N) (hf : (cfg4.win 4).flush t = true) :
    (Reg.dat4 V c).flushed 4 t = ((cfg4.win 4).blk t).view.read (Elt Ideal) (G4 V c) := by
  have h : t.val % 16 = 15 := (flush4_4 t).mp hf
  show (cfg4.win 4).cut (grid4.coords t) ((Reg.dat4 V c).after 4 t) = _
  rw [Reg.after4_4_last V c t h]
  funext y
  obtain ⟨p, q, rfl⟩ : ∃ (p : Fin 2048) (q : Fin 128), y = ix2 p q := ⟨y 0, y 1, eq_ix2 (n0 := 2048) (n1 := 128) y⟩
  show k4_pay3 (Reg.acc4 V c t.val t.isLt) (Reg.iblk4 V c 2 t) (Reg.iblk4 V c 3 t) (ix2 p q) = G4 V c (((cfg4.win 4).blk t).view.emb (ix2 p q))
  rw [k4_pay3_apply, acc4_last V c t h, iblk4_2_apply, iblk4_3_apply, emb4_4, G4_ix2]

/-- An index of the array is in point t's block iff each coordinate is in the block's range on its axis. -/
theorem mem_blk4 (t : Fin cfg4.N) (i : S16384x128.Idx) :
    i ∈ ((cfg4.win 4).blk t).view.set ↔ ∀ a : Fin 2, win4_4.index t a * S2048x128.size a ≤ (i a).val ∧ (i a).val < win4_4.index t a * S2048x128.size a + S2048x128.size a := by
  show i ∈ ((View.whole main_v8).slice (win4_4.rect t)).set ↔ _
  rw [View.set_slice_whole, Rect.mem_set_unit]
  exact Iff.rfl

/-- Every index lies in the block of a point that writes back: row r is in row tile r / 2048, whose last contraction
    step is point 16·(r / 2048) + 15. -/
theorem cover4 (i : S16384x128.Idx) : ∃ t : Fin cfg4.N, (cfg4.win 4).flush t = true ∧ i ∈ ((cfg4.win 4).blk t).view.set := by
  have hi0 : (i 0).val < 16384 := (i 0).isLt
  have hi1 : (i 1).val < 128 := (i 1).isLt
  obtain ⟨t, ht⟩ : ∃ t : Fin cfg4.N, t.val = 16 * ((i 0).val / 2048) + 15 :=
    ⟨⟨16 * ((i 0).val / 2048) + 15, lt_of_lt_of_eq (by omega : 16 * ((i 0).val / 2048) + 15 < 128) N_4.symm⟩, rfl⟩
  obtain ⟨-, -, -, -, -, -, -, -, e0, e1⟩ := idx4 t
  refine ⟨t, (flush4_4 t).mpr (by omega), ?_⟩
  rw [mem_blk4]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 128 ≤ (i 1).val ∧ (i 1).val < win4_4.index t (1 : Fin 2) * 128 + 128; omega

/-- The region's result array after the run, entry by entry. -/
theorem arr4_out (c : Dev nD) (r : Fin 16384) (j : Fin 128) :
    (Reg.dat4 (F := Ideal) V c).arrAt 4 cfg4.N (ix2 r j)
      = ((∑ k : Fin 16384, lhs4 V c (ix2 r k) * rhs4 V c (ix2 k j)) + row4 V c (ix2 (0 : Fin 1) j)) + res4 V c (ix2 r j) := by
  rw [(Reg.dat4 V c).arrAt_eq_of_cover 4 (G4 V c) (fun t hf => flushed4_eq V c t hf) cover4]
  rfl

/-- The same over any names for the four arrays. -/
theorem arr4_out_of (c : Dev nD) (adj : (⟨2, ![16384, 16384]⟩ : Shape).Idx → EReal) (s : (⟨2, ![16384, 128]⟩ : Shape).Idx → EReal)
    (b : (⟨2, ![1, 128]⟩ : Shape).Idx → EReal) (d : (⟨2, ![16384, 128]⟩ : Shape).Idx → EReal)
    (hadj : V c main_arg1 = adj) (hs : V c main_v3 = s) (hb : V c main_v7 = b) (hd : V c main_v6 = d)
    (r : Fin 16384) (j : Fin 128) :
    (Reg.dat4 (F := Ideal) V c).arrAt 4 cfg4.N (ix2 r j)
      = ((∑ k : Fin 16384, adj (ix2 r k) * s (ix2 k j)) + b (ix2 (0 : Fin 1) j)) + d (ix2 r j) := by
  subst hadj; subst hs; subst hb; subst hd
  exact arr4_out V c r j

end Cert.KernelIdeal.Val

end
-- ==== Proof.KI.Host.lean ====
/-
  What the host operations between the pallas_calls write, from any contents W of the buffers before them: a bias
  vector of 128 entries becomes a 1 × 128 row holding the same entries, and the 128 × 128 residual weight is
  transposed, entry (d, j) of the result being entry (j, d) of the weight.
-/
import proofs.«137723_j44461501448910_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.TcCoe Idealize.ShloMosaic.ValueIdx
open Cert.KernelIdeal Cert.KernelIdeal.Gen

variable {F : FTy → Type} [FloatOps F]

/-- The first bias vector as a row. -/
theorem after1_v1 (W : Valuation τ sig (Elt F)) :
    (StableHlo.after hostOps1 W (Proc.devRef .tc main_v1) : S1x128.Idx → Elt F .f32)
      = shapeCast S1x128 (W (Proc.devRef .tc main_arg3) : S128.Idx → Elt F .f32) shapeCasts_S128_S1x128 := by
  after_results
  all_goals rfl

/-- The residual weight transposed. -/
theorem after3_v4 (W : Valuation τ sig (Elt F)) :
    (StableHlo.after hostOps3 W (Proc.devRef .tc main_v4) : S128x128.Idx → Elt F .f32)
      = transpose S128x128 [1, 0] (W (Proc.devRef .tc main_arg6) : S128x128.Idx → Elt F .f32) transposes_S128x128_S128x128_1_0 := by
  after_results
  all_goals rfl

/-- The residual bias vector as a row. -/
theorem after3_v5 (W : Valuation τ sig (Elt F)) :
    (StableHlo.after hostOps3 W (Proc.devRef .tc main_v5) : S1x128.Idx → Elt F .f32)
      = shapeCast S1x128 (W (Proc.devRef .tc main_arg7) : S128.Idx → Elt F .f32) shapeCasts_S128_S1x128 := by
  after_results
  all_goals rfl

/-- The second bias vector as a row. -/
theorem after4_v7 (W : Valuation τ sig (Elt F)) :
    (StableHlo.after hostOps4 W (Proc.devRef .tc main_v7) : S1x128.Idx → Elt F .f32)
      = shapeCast S1x128 (W (Proc.devRef .tc main_arg5) : S128.Idx → Elt F .f32) shapeCasts_S128_S1x128 := by
  after_results
  all_goals rfl

/-- A vector of 128 entries cast to one row reads, at (0, j), entry j. -/
theorem row_apply {α : Type} (b : S128.Idx → α) (j : Fin 128) :
    shapeCast S1x128 b shapeCasts_S128_S1x128 (ix2 (0 : Fin 1) j) = b (ix1 j) :=
  shapeCast_a_1a_apply b shapeCasts_S128_S1x128 (0 : Fin 1) j

/-- The transposed weight reads, at (d, j), the weight's entry (j, d). -/
theorem transposed_apply {α : Type} (w : S128x128.Idx → α) (d j : Fin 128) :
    transpose S128x128 [1, 0] w transposes_S128x128_S128x128_1_0 (ix2 d j) = w (ix2 j d) :=
  transpose_ix2_apply w transposes_S128x128_S128x128_1_0 d j

end Cert.KernelIdeal.Host

end
-- ==== Proof.KI.Chain.lean ====
/-
  The kernel's result, read through its five products. Between the products the buffers hold, at row r and column j:
  after the first, support₁ = Σ_d x r d · W₂ d j; after the second, hidden r j (Spec.lean) — the adjacency product of
  support₁ plus the first bias; after the third, support₂ = Σ_d hidden r d · W₄ d j; after the fourth, the residual
  Σ_d hidden r d · res_w j d + res_b j (the host transposed res_w beforehand); after the fifth,
  (Σ_k adj r k · support₂ k j + b₄ j) + residual, which is G r j. Each bias vector reaches its product as a 1 × 128 row
  holding the same entries. The arguments themselves are never written, so every read of one goes back to the launch.
  Every array is named here by a function over its literal shape, and the steps are equations between such functions.
-/
import proofs.«137723_j44461501448910_1_alg».proof.Proof.KI.Run
import proofs.«137723_j44461501448910_1_alg».proof.Proof.KI.Val2
import proofs.«137723_j44461501448910_1_alg».proof.Proof.KI.ValGcn1
import proofs.«137723_j44461501448910_1_alg».proof.Proof.KI.ValGcn4
import proofs.«137723_j44461501448910_1_alg».proof.Proof.KI.Host
import proofs.«137723_j44461501448910_1_alg».proof.Proof.Spec

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Reg
open scoped BigOperators

variable (m : (ℓ : Loc nD τ sig) → Buf (Elt Ideal) ℓ) (ρ : Dev nD → PrngReg)

/-! ## The eight arguments at launch, each at its shape -/

abbrev aX (c : Dev nD) : S16384x128.Idx → EReal := m ((c : Thread nD τ).loc main_arg0)
abbrev aAdj (c : Dev nD) : S16384x16384.Idx → EReal := m ((c : Thread nD τ).loc main_arg1)
abbrev aW2 (c : Dev nD) : S128x128.Idx → EReal := m ((c : Thread nD τ).loc main_arg2)
abbrev aB2 (c : Dev nD) : S128.Idx → EReal := m ((c : Thread nD τ).loc main_arg3)
abbrev aW4 (c : Dev nD) : S128x128.Idx → EReal := m ((c : Thread nD τ).loc main_arg4)
abbrev aB4 (c : Dev nD) : S128.Idx → EReal := m ((c : Thread nD τ).loc main_arg5)
abbrev aRw (c : Dev nD) : S128x128.Idx → EReal := m ((c : Thread nD τ).loc main_arg6)
abbrev aRb (c : Dev nD) : S128.Idx → EReal := m ((c : Thread nD τ).loc main_arg7)

/-! ## The small arrays the host makes, and the hidden layer as an array -/

/-- A vector of 128 entries laid out as one row. -/
def rowOf (b : S128.Idx → EReal) : S1x128.Idx → EReal := fun i => b (ix1 ⟨(i 1).val, (i 1).isLt⟩)
theorem rowOf_ix2 (b : S128.Idx → EReal) (j : Fin 128) : rowOf b (ix2 (0 : Fin 1) j) = b (ix1 j) := rfl

/-- A 128 × 128 matrix transposed. -/
def transp (w : S128x128.Idx → EReal) : S128x128.Idx → EReal :=
  fun i => w (ix2 (⟨(i 1).val, (i 1).isLt⟩ : Fin 128) (⟨(i 0).val, (i 0).isLt⟩ : Fin 128))
theorem transp_ix2 (w : S128x128.Idx → EReal) (d j : Fin 128) : transp w (ix2 d j) = w (ix2 j d) := rfl

/-- The first layer as an array. -/
def hiddenArr (x : S16384x128.Idx → EReal) (adj : S16384x16384.Idx → EReal) (W2 : S128x128.Idx → EReal)
    (b2 : S128.Idx → EReal) : S16384x128.Idx → EReal :=
  fun i => Cert.Gcn.hidden x adj W2 b2 ⟨(i 0).val, (i 0).isLt⟩ ⟨(i 1).val, (i 1).isLt⟩
theorem hiddenArr_ix2 (x : S16384x128.Idx → EReal) (adj : S16384x16384.Idx → EReal) (W2 : S128x128.Idx → EReal)
    (b2 : S128.Idx → EReal) (r : Fin 16384) (j : Fin 128) :
    hiddenArr x adj W2 b2 (ix2 r j) = Cert.Gcn.hidden x adj W2 b2 r j := rfl

/-- An index of a one-row array is (0, j). -/
theorem row_idx (i : S1x128.Idx) : ∃ j : Fin 128, i = ix2 (0 : Fin 1) j := by
  obtain ⟨u, j, rfl⟩ : ∃ (u : Fin 1) (j : Fin 128), i = ix2 u j := ⟨i 0, i 1, eq_ix2 i⟩
  exact ⟨j, by rw [Subsingleton.elim u 0]⟩

/-! ## An argument no earlier item writes is still as launched -/

/-- Up to the second host stretch: a buffer that is no array of the first three products and not the first bias row. -/
theorem W4_kept (c : Dev nD) (b : Ref sig .tc) (h0 : ∀ w, Pipeline.arrRef spec0 w ≠ b) (h1 : b ≠ main_v1)
    (h2 : ∀ w, Pipeline.arrRef spec1 w ≠ b) (h3 : ∀ w, Pipeline.arrRef spec2 w ≠ b) :
    W4 m ρ c (Proc.devRef .tc b) = W0 m ρ c (Proc.devRef .tc b) :=
  (W4_of_ne m ρ c b h3).trans <| (W3_of_ne m ρ c b h2).trans <| (W2_of_ne m ρ c b h1).trans (W1_of_ne m ρ c b h0)

/-- Up to the third host stretch: nor the transposed weight, the residual bias row or an array of the fourth product. -/
theorem W6_kept (c : Dev nD) (b : Ref sig .tc) (h0 : ∀ w, Pipeline.arrRef spec0 w ≠ b) (h1 : b ≠ main_v1)
    (h2 : ∀ w, Pipeline.arrRef spec1 w ≠ b) (h3 : ∀ w, Pipeline.arrRef spec2 w ≠ b) (h4 : b ≠ main_v4) (h5 : b ≠ main_v5)
    (h6 : ∀ w, Pipeline.arrRef spec3 w ≠ b) :
    W6 m ρ c (Proc.devRef .tc b) = W0 m ρ c (Proc.devRef .tc b) :=
  (W6_of_ne m ρ c b h6).trans <| (W5_of_ne m ρ c b h4 h5).trans (W4_kept m ρ c b h0 h1 h2 h3)

/-! ## The rows and the transposed weight, as the products find them -/

/-- The first bias reaches the second product as a row. -/
theorem b2row (c : Dev nD) : V2 m ρ c main_v1 = rowOf (aB2 m c) := by
  funext i
  obtain ⟨j, rfl⟩ := row_idx i
  show (StableHlo.after hostOps1 (W1 m ρ c) (Proc.devRef .tc main_v1) : S1x128.Idx → Elt Ideal .f32) (ix2 (0 : Fin 1) j) = _
  rw [Host.after1_v1, Host.row_apply, W1_of_ne m ρ c main_arg3 (by decide), rowOf_ix2]

/-- The residual weight reaches the fourth product transposed. -/
theorem rwT (c : Dev nD) : V5 m ρ c main_v4 = transp (aRw m c) := by
  funext i
  obtain ⟨d, j, rfl⟩ : ∃ (d j : Fin 128), i = ix2 d j := ⟨i 0, i 1, eq_ix2 i⟩
  show (StableHlo.after hostOps3 (W4 m ρ c) (Proc.devRef .tc main_v4) : S128x128.Idx → Elt Ideal .f32) (ix2 d j) = _
  rw [Host.after3_v4, Host.transposed_apply, W4_kept m ρ c main_arg6 (by decide) (by decide) (by decide) (by decide),
    transp_ix2]

/-- The residual bias reaches the fourth product as a row. -/
theorem rbrow (c : Dev nD) : V5 m ρ c main_v5 = rowOf (aRb m c) := by
  funext i
  obtain ⟨j, rfl⟩ := row_idx i
  show (StableHlo.after hostOps3 (W4 m ρ c) (Proc.devRef .tc main_v5) : S1x128.Idx → Elt Ideal .f32) (ix2 (0 : Fin 1) j) = _
  rw [Host.after3_v5, Host.row_apply, W4_kept m ρ c main_arg7 (by decide) (by decide) (by decide) (by decide), rowOf_ix2]

/-- The second bias reaches the fifth product as a row. -/
theorem b4row (c : Dev nD) : V7 m ρ c main_v7 = rowOf (aB4 m c) := by
  funext i
  obtain ⟨j, rfl⟩ := row_idx i
  show (StableHlo.after hostOps4 (W6 m ρ c) (Proc.devRef .tc main_v7) : S1x128.Idx → Elt Ideal .f32) (ix2 (0 : Fin 1) j) = _
  rw [Host.after4_v7, Host.row_apply,
    W6_kept m ρ c main_arg5 (by decide) (by decide) (by decide) (by decide) (by decide) (by decide) (by decide), rowOf_ix2]

/-! ## The five products, in order -/

/-- After the first product: x · W₂. -/
theorem support1 (c : Dev nD) : V2 m ρ c main_v0 = rowsTimes (aX m c) (aW2 m c) :=
  (entry1_main_v0 m ρ c).trans (arr0_eq (V0 m ρ) c)

/-- The second product's result, from the arrays it is entered with: the hidden layer. -/
theorem hidden_of_entry (c : Dev nD) :
    (dat1 (F := Ideal) (V2 m ρ) c).arrAt 3 cfg1.N = hiddenArr (aX m c) (aAdj m c) (aW2 m c) (aB2 m c) := by
  funext i
  obtain ⟨r, j, rfl⟩ : ∃ (r : Fin 16384) (j : Fin 128), i = ix2 r j := ⟨i 0, i 1, eq_ix2 i⟩
  rw [arr1_out_of (V2 m ρ) c (aAdj m c) (rowsTimes (aX m c) (aW2 m c)) (rowOf (aB2 m c)) (entry1_main_arg1 m ρ c)
    (support1 m ρ c) (b2row m ρ c) r j, hiddenArr_ix2]
  unfold Cert.Gcn.hidden
  simp only [rowsTimes_ix2, rowOf_ix2]

/-- The third product finds the hidden layer in place, -/
theorem hidden_at (c : Dev nD) : V3 m ρ c main_v2 = hiddenArr (aX m c) (aAdj m c) (aW2 m c) (aB2 m c) :=
  (entry2_main_v2 m ρ c).trans (hidden_of_entry m ρ c)

/-- and so does the fourth: nothing in between writes it. -/
theorem hidden_at' (c : Dev nD) : V5 m ρ c main_v2 = hiddenArr (aX m c) (aAdj m c) (aW2 m c) (aB2 m c) :=
  (entry3_main_v2 m ρ c).trans (hidden_of_entry m ρ c)

/-- After the third product: hidden · W₄. -/
theorem support2 (c : Dev nD) :
    V7 m ρ c main_v3 = rowsTimes (hiddenArr (aX m c) (aAdj m c) (aW2 m c) (aB2 m c)) (aW4 m c) :=
  (entry4_main_v3 m ρ c).trans ((arr2_eq (V3 m ρ) c).trans
    (congrArg₂ rowsTimes (hidden_at m ρ c) (entry2_main_arg4 m ρ c)))

/-- After the fourth product: hidden · res_wᵀ + res_b. -/
theorem residual (c : Dev nD) :
    V7 m ρ c main_v6
      = rowsTimesPlus (hiddenArr (aX m c) (aAdj m c) (aW2 m c) (aB2 m c)) (transp (aRw m c)) (rowOf (aRb m c)) :=
  (entry4_main_v6 m ρ c).trans ((arr3_eq (V5 m ρ) c).trans
    ((congrArg (fun a => rowsTimesPlus a (V5 m ρ c main_v4) (V5 m ρ c main_v5)) (hidden_at' m ρ c)).trans
      ((congrArg (fun b => rowsTimesPlus (hiddenArr (aX m c) (aAdj m c) (aW2 m c) (aB2 m c)) b (V5 m ρ c main_v5)) (rwT m ρ c)).trans
        (congrArg (fun s => rowsTimesPlus (hiddenArr (aX m c) (aAdj m c) (aW2 m c) (aB2 m c)) (transp (aRw m c)) s) (rbrow m ρ c)))))

/-- After the fifth product the result array holds G of the eight arguments. -/
theorem kernel_value (c : Dev nD) :
    W8 m ρ c (Proc.devRef .tc main_v8)
      = Cert.Gcn.Gfun (aX m c) (aAdj m c) (aW2 m c) (aB2 m c) (aW4 m c) (aB4 m c) (aRw m c) (aRb m c) := by
  refine (W8_out m ρ c).trans ?_
  funext i
  obtain ⟨r, j, rfl⟩ : ∃ (r : Fin 16384) (j : Fin 128), i = ix2 r j := ⟨i 0, i 1, eq_ix2 i⟩
  rw [arr4_out_of (V7 m ρ) c (aAdj m c) (rowsTimes (hiddenArr (aX m c) (aAdj m c) (aW2 m c) (aB2 m c)) (aW4 m c))
    (rowOf (aB4 m c)) (rowsTimesPlus (hiddenArr (aX m c) (aAdj m c) (aW2 m c) (aB2 m c)) (transp (aRw m c)) (rowOf (aRb m c)))
    (entry4_main_arg1 m ρ c) (support2 m ρ c) (b4row m ρ c) (residual m ρ c) r j, Cert.Gcn.Gfun_ix2]
  unfold Cert.Gcn.G
  simp only [rowsTimes_ix2, rowsTimesPlus_ix2, rowOf_ix2, transp_ix2, hiddenArr_ix2]

/-! ## The run, with the result named -/

/-- Every weakly fair execution of the kernel's program ends with G of the arguments in the result array and the
    arguments as launched. -/
theorem run_value : θ_run defs (onTc (τ := τ) (main (F := Ideal))) ⟨m, fun _ => 0, ρ⟩ (fun r => ∀ c : Dev nD,
      r.2.mem ((c.tc : Thread nD τ).loc main_v8) = Cert.Gcn.Gfun (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (kernel_value m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c)⟩)
    (run_all m ρ)

end Cert.KernelIdeal.Val

end
-- ==== Proof.RefValue.lean ====
/-
  The reference computes the specification. Its sixteen operations are read at one entry (r, j) of the result, from the
  last addition inwards: each matrix product is the sum over its contracted position of left entry times right entry,
  each broadcast bias is the bias at the column, the transposed residual weight at (d, j) is the weight at (j, d), and
  the first layer's output at (k, d) is the specification's hidden k d. What is left is the entry's four summands
  A + b4, R, rb grouped as ((A + b4) + R) + rb where the specification has (A + b4) + (R + rb).
-/
import proofs.«137723_j44461501448910_1_alg».proof.Proof.Gen.ReferenceIdeal.Read
import proofs.«137723_j44461501448910_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The contractions' operand indices, by coordinates

Each product reads its left operand at (row of the result, contracted position) and its right operand at
(contracted position, column of the result). -/

theorem lidx0 (k : Fin 16384) (d e : Fin 128) : lidx_main_v0 (ix2 k d) e = ix2 k e :=
  funext fun a => Fin.ext (by match a with | ⟨0, _⟩ => rfl | ⟨1, _⟩ => rfl)
theorem ridx0 (k : Fin 16384) (d e : Fin 128) : ridx_main_v0 (ix2 k d) e = ix2 e d :=
  funext fun a => Fin.ext (by match a with | ⟨0, _⟩ => rfl | ⟨1, _⟩ => rfl)
theorem lidx1 (r : Fin 16384) (d : Fin 128) (k : Fin 16384) : lidx_main_v1 (ix2 r d) k = ix2 r k :=
  funext fun a => Fin.ext (by match a with | ⟨0, _⟩ => rfl | ⟨1, _⟩ => rfl)
theorem ridx1 (r : Fin 16384) (d : Fin 128) (k : Fin 16384) : ridx_main_v1 (ix2 r d) k = ix2 k d :=
  funext fun a => Fin.ext (by match a with | ⟨0, _⟩ => rfl | ⟨1, _⟩ => rfl)
theorem lidx5 (k : Fin 16384) (j d : Fin 128) : lidx_main_v5 (ix2 k j) d = ix2 k d :=
  funext fun a => Fin.ext (by match a with | ⟨0, _⟩ => rfl | ⟨1, _⟩ => rfl)
theorem ridx5 (k : Fin 16384) (j d : Fin 128) : ridx_main_v5 (ix2 k j) d = ix2 d j :=
  funext fun a => Fin.ext (by match a with | ⟨0, _⟩ => rfl | ⟨1, _⟩ => rfl)
theorem lidx6 (r : Fin 16384) (j : Fin 128) (k : Fin 16384) : lidx_main_v6 (ix2 r j) k = ix2 r k :=
  funext fun a => Fin.ext (by match a with | ⟨0, _⟩ => rfl | ⟨1, _⟩ => rfl)
theorem ridx6 (r : Fin 16384) (j : Fin 128) (k : Fin 16384) : ridx_main_v6 (ix2 r j) k = ix2 k j :=
  funext fun a => Fin.ext (by match a with | ⟨0, _⟩ => rfl | ⟨1, _⟩ => rfl)
theorem lidx11 (r : Fin 16384) (j d : Fin 128) : lidx_main_v11 (ix2 r j) d = ix2 r d :=
  funext fun a => Fin.ext (by match a with | ⟨0, _⟩ => rfl | ⟨1, _⟩ => rfl)
theorem ridx11 (r : Fin 16384) (j d : Fin 128) : ridx_main_v11 (ix2 r j) d = ix2 d j :=
  funext fun a => Fin.ext (by match a with | ⟨0, _⟩ => rfl | ⟨1, _⟩ => rfl)

/-- The transposed weight at (d, j) is the weight at (j, d). -/
theorem idx10 (d j : Fin 128) : idx_main_v10 (ix2 d j) = ix2 j d :=
  funext fun a => Fin.ext (by match a with | ⟨0, _⟩ => rfl | ⟨1, _⟩ => rfl)

/-- A bias row broadcast over the 16384 rows is read at its column alone. -/
theorem idx23 (r : Fin 16384) (j : Fin 128) : idx_main_v2 (idx_main_v3 (ix2 r j)) = ix1 j :=
  funext fun a => Fin.ext (by match a with | ⟨0, _⟩ => rfl)
theorem idx78 (r : Fin 16384) (j : Fin 128) : idx_main_v7 (idx_main_v8 (ix2 r j)) = ix1 j :=
  funext fun a => Fin.ext (by match a with | ⟨0, _⟩ => rfl)
theorem idx1314 (r : Fin 16384) (j : Fin 128) : idx_main_v13 (idx_main_v14 (ix2 r j)) = ix1 j :=
  funext fun a => Fin.ext (by match a with | ⟨0, _⟩ => rfl)

/-! ## The stages -/

/-- The first layer: the reference's fourth stage at (r, d) is adj · (x · W2) + b2 there. -/
theorem v4_at (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (r : Fin 16384) (d : Fin 128) :
    val_main_v4 (F := Ideal) x0 x1 x2 x3 (ix2 r d) = Cert.Gcn.hidden x0 x1 x2 x3 r d := by
  rw [val_main_v4_apply, val_main_v1_apply, val_main_v3_apply, val_main_v2_apply, idx23]
  simp only [lidx1, ridx1, val_main_v0_apply, lidx0, ridx0]
  rfl

/-- The reference's result is the specification's array. The reference groups the four summands of an entry as
    ((A + b4) + R) + rb and the specification as (A + b4) + (R + rb): associativity of addition. -/
theorem ref_eq (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    Cert.ReferenceIdeal.Read.val_main_v15 (F := Ideal) x0 x1 x2 x3 x4 x5 x6 x7 = Cert.Gcn.Gfun x0 x1 x2 x3 x4 x5 x6 x7 := by
  funext i
  obtain ⟨r, j, rfl⟩ : ∃ (r : Fin 16384) (j : Fin 128), i = ix2 r j := ⟨i 0, i 1, eq_ix2 i⟩
  rw [Cert.Gcn.Gfun_ix2, val_main_v15_apply, val_main_v12_apply, val_main_v9_apply, val_main_v6_apply, val_main_v8_apply,
    val_main_v7_apply, idx78, val_main_v11_apply, val_main_v14_apply, val_main_v13_apply, idx1314]
  simp only [lidx6, ridx6, val_main_v5_apply, lidx5, ridx5, lidx11, ridx11, val_main_v10_apply, idx10, v4_at]
  exact add_assoc _ _ _

end Cert.ReferenceIdeal.RefValue

end
-- ==== Proof.lean ====
/-
  The certificate of a two-layer graph convolution with a linear residual, computed by five tiled products.

  The kernel computes support₁ = x·W₂ (row tiles), hidden = adj·support₁ + b₂ (row tiles × sixteen column tiles of adj,
  summed in an accumulator that starts from zero), support₂ = hidden·W₄, resid = hidden·res_wᵀ + res_b, and
  out = (adj·support₂ + b₄) + resid. The reference computes hidden the same way up to the tiling and
  out = ((adj·(hidden·W₄) + b₄) + hidden·res_wᵀ) + res_b. Over the extended reals narrowing a float is the identity and a
  sum does not depend on how it is grouped, so both are the function G of Spec.lean: the sixteen partial sums of 1024
  terms add up to the whole sum of 16384 terms, and the last three summands are regrouped by associativity. No entry needs
  to be finite for this, so the precondition is never opened.

  The three frames: each kernel program's run is its five regions and three host stretches chained (KI/Run.lean for the
  exact instance, K/Run.lean for the word-level one, from the same text), every argument array read back unchanged at the
  end; the reference's is its run with the result dropped. The ideal pass rewrote nothing, so there is nothing to preserve.
-/
import proofs.«137723_j44461501448910_1_alg».proof.Defs
import proofs.«137723_j44461501448910_1_alg».proof.Proof.Gen.Kernel
import proofs.«137723_j44461501448910_1_alg».proof.Proof.Gen.KernelIdeal
import proofs.«137723_j44461501448910_1_alg».proof.Proof.Gen.ReferenceIdeal
import proofs.«137723_j44461501448910_1_alg».proof.Proof.Gen.Pre_finite_inputs
import proofs.«137723_j44461501448910_1_alg».proof.Proof.Gen.ReferenceIdeal.Run
import proofs.«137723_j44461501448910_1_alg».proof.Proof.Gen.ReferenceIdeal.Read
import proofs.«137723_j44461501448910_1_alg».proof.Proof.K.Run
import proofs.«137723_j44461501448910_1_alg».proof.Proof.KI.Run
import proofs.«137723_j44461501448910_1_alg».proof.Proof.KI.Chain
import proofs.«137723_j44461501448910_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its eight arguments as launched. -/
theorem frame_k : Cert.frame_Kernel := fun m ρ _ => Cert.Kernel.Reg.frame (F := Bits) m ρ

/-- So does the program read over the extended reals. -/
theorem frame_ki : Cert.frame_KernelIdeal := fun m ρ _ => Cert.KernelIdeal.Reg.frame (F := Ideal) m ρ

/-- The reference is sixteen host operations in a row: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with G of the eight arguments in their result array. -/
theorem algebraic : Cert.algebraic_KernelIdeal_ReferenceIdeal := by
  intro m ρ m' ρ' _ hagree
  refine ⟨fun c => Cert.Gcn.Gfun
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact Cert.KernelIdeal.Val.run_value m ρ
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.ReferenceIdeal.RefValue.ref_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
